-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1000000x3 : Shape := ⟨3, ![4, 1000000, 3]⟩
abbrev S1996002x3 : Shape := ⟨2, ![1996002, 3]⟩
abbrev S2996001x2 : Shape := ⟨2, ![2996001, 2]⟩
abbrev S_ : Shape := ⟨0, ![]⟩

class Facts : Prop where
  bcast_S_S4x1000000x3 : S_.BroadcastsInDim S4x1000000x3 (![] : Fin 0 → Fin S4x1000000x3.rank)
  reducesTo_S4x1000000x3_S_d0_1_2 : S4x1000000x3.ReducesTo [0, 1, 2] S_
  h_S_ : 0 < S_.numel

variable [Facts]

def fn {F : FTy → Type} [FloatOps F] (main_arg0 : FVec F S4x1000000x3 .f32) (main_arg1 : IVec S1996002x3 32) (main_arg2 : IVec S2996001x2 32) : IVec S_ 1 :=
  let main_v0 : FVec F S4x1000000x3 .f32 := Host.absf main_arg0
  let main_cst : FVec F S_ .f32 := constant S_ .f32 0x7F800000#32
  let main_v1 : FVec F S4x1000000x3 .f32 := broadcastInDim S4x1000000x3 ![] bcast_S_S4x1000000x3 main_cst
  let main_v2 : IVec S4x1000000x3 1 := cmpf .olt main_v0 main_v1
  let main_c : IVec S_ 1 := constantI S_ 1 1#1
  let main_v3 : IVec S_ 1 := (fun x v => Host.reduce IntOp.andi x v reducesTo_S4x1000000x3_S_d0_1_2 h_S_) main_v2 main_c
  main_v3
-- ==== Kernel.lean ====
abbrev S4x1000000x3 : Shape := ⟨3, ![4, 1000000, 3]⟩
abbrev S1996002x3 : Shape := ⟨2, ![1996002, 3]⟩
abbrev S2996001x2 : Shape := ⟨2, ![2996001, 2]⟩
abbrev S2996001x1 : Shape := ⟨2, ![2996001, 1]⟩
abbrev S2996001 : Shape := ⟨1, ![2996001]⟩
abbrev S5992002 : Shape := ⟨1, ![5992002]⟩
abbrev S_ : Shape := ⟨0, ![]⟩
abbrev S1048576 : Shape := ⟨1, ![1048576]⟩
abbrev S5992002x1 : Shape := ⟨2, ![5992002, 1]⟩
abbrev S1000000x4x3 : Shape := ⟨3, ![1000000, 4, 3]⟩
abbrev S5992002x4x3 : Shape := ⟨3, ![5992002, 4, 3]⟩
abbrev S1048576x4x3 : Shape := ⟨3, ![1048576, 4, 3]⟩
abbrev S4x3x1048576 : Shape := ⟨3, ![4, 3, 1048576]⟩
abbrev S4x3x1000000 : Shape := ⟨3, ![4, 3, 1000000]⟩
abbrev S1x1x1048576 : Shape := ⟨3, ![1, 1, 1048576]⟩
abbrev S64x128 : Shape := ⟨2, ![64, 128]⟩
abbrev S4x3x131072 : Shape := ⟨3, ![4, 3, 131072]⟩
abbrev S1x1x131072 : Shape := ⟨3, ![1, 1, 131072]⟩
abbrev S8x128 : Shape := ⟨2, ![8, 128]⟩
abbrev S4x131072 : Shape := ⟨2, ![4, 131072]⟩
abbrev S131072 : Shape := ⟨1, ![131072]⟩
abbrev S1x131072 : Shape := ⟨2, ![1, 131072]⟩
abbrev S1024x128 : Shape := ⟨2, ![1024, 128]⟩
abbrev S128 : Shape := ⟨1, ![128]⟩
abbrev S7x128 : Shape := ⟨2, ![7, 128]⟩
abbrev S1x128 : Shape := ⟨2, ![1, 128]⟩

abbrev nBuf : Space → Nat
  | .hbm => 61
  | .vmem => 8
  | .smem => 0
  | _ => 0

abbrev bufTy : (tb : Table) → Fin (tcTables nBuf tb) → BufTy
  | .hbm, ⟨0, _⟩ => ⟨S4x1000000x3, .f32⟩
  | .hbm, ⟨1, _⟩ => ⟨S1996002x3, .i32⟩
  | .hbm, ⟨2, _⟩ => ⟨S2996001x2, .i32⟩
  | .hbm, ⟨3, _⟩ => ⟨S2996001x1, .i32⟩
  | .hbm, ⟨4, _⟩ => ⟨S2996001, .i32⟩
  | .hbm, ⟨5, _⟩ => ⟨S2996001x1, .i32⟩
  | .hbm, ⟨6, _⟩ => ⟨S2996001, .i32⟩
  | .hbm, ⟨7, _⟩ => ⟨S5992002, .i32⟩
  | .hbm, ⟨8, _⟩ => ⟨S2996001x1, .i32⟩
  | .hbm, ⟨9, _⟩ => ⟨S2996001, .i32⟩
  | .hbm, ⟨10, _⟩ => ⟨S2996001x1, .i32⟩
  | .hbm, ⟨11, _⟩ => ⟨S2996001, .i32⟩
  | .hbm, ⟨12, _⟩ => ⟨S5992002, .i32⟩
  | .hbm, ⟨13, _⟩ => ⟨S_, .f32⟩
  | .hbm, ⟨14, _⟩ => ⟨S5992002, .f32⟩
  | .hbm, ⟨15, _⟩ => ⟨S_, .f32⟩
  | .hbm, ⟨16, _⟩ => ⟨S1048576, .f32⟩
  | .hbm, ⟨17, _⟩ => ⟨S5992002x1, .i32⟩
  | .hbm, ⟨18, _⟩ => ⟨S1048576, .f32⟩
  | .hbm, ⟨19, _⟩ => ⟨S1000000x4x3, .f32⟩
  | .hbm, ⟨20, _⟩ => ⟨S_, .i32⟩
  | .hbm, ⟨21, _⟩ => ⟨S5992002, .i32⟩
  | .hbm, ⟨22, _⟩ => ⟨S5992002, .i1⟩
  | .hbm, ⟨23, _⟩ => ⟨S_, .i32⟩
  | .hbm, ⟨24, _⟩ => ⟨S5992002, .i32⟩
  | .hbm, ⟨25, _⟩ => ⟨S5992002, .i32⟩
  | .hbm, ⟨26, _⟩ => ⟨S5992002, .i32⟩
  | .hbm, ⟨27, _⟩ => ⟨S5992002x1, .i32⟩
  | .hbm, ⟨28, _⟩ => ⟨S5992002x4x3, .f32⟩
  | .hbm, ⟨29, _⟩ => ⟨S_, .f32⟩
  | .hbm, ⟨30, _⟩ => ⟨S1048576x4x3, .f32⟩
  | .hbm, ⟨31, _⟩ => ⟨S5992002x1, .i32⟩
  | .hbm, ⟨32, _⟩ => ⟨S1048576x4x3, .f32⟩
  | .hbm, ⟨33, _⟩ => ⟨S_, .f32⟩
  | .hbm, ⟨34, _⟩ => ⟨S1048576, .f32⟩
  | .hbm, ⟨35, _⟩ => ⟨S1048576, .i1⟩
  | .hbm, ⟨36, _⟩ => ⟨S_, .f32⟩
  | .hbm, ⟨37, _⟩ => ⟨S1048576, .f32⟩
  | .hbm, ⟨38, _⟩ => ⟨S1048576, .i1⟩
  | .hbm, ⟨39, _⟩ => ⟨S_, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S_, .f32⟩
  | .hbm, ⟨44, _⟩ => ⟨S1048576, .f32⟩
  | .hbm, ⟨45, _⟩ => ⟨S1048576, .f32⟩
  | .hbm, ⟨46, _⟩ => ⟨S_, .f32⟩
  | .hbm, ⟨47, _⟩ => ⟨S_, .f32⟩
  | .hbm, ⟨48, _⟩ => ⟨S1048576, .f32⟩
  | .hbm, ⟨49, _⟩ => ⟨S1048576, .f32⟩
  | .hbm, ⟨50, _⟩ => ⟨S4x3x1048576, .f32⟩
  | .hbm, ⟨51, _⟩ => ⟨S4x3x1000000, .f32⟩
  | .hbm, ⟨52, _⟩ => ⟨S_, .i32⟩
  | .hbm, ⟨53, _⟩ => ⟨S_, .f32⟩
  | .hbm, ⟨54, _⟩ => ⟨S4x3x1048576, .f32⟩
  | .hbm, ⟨55, _⟩ => ⟨S1x1x1048576, .f32⟩
  | .hbm, ⟨56, _⟩ => ⟨S64x128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S4x3x131072, .f32⟩
  | .local _ .vmem, ⟨1, _⟩ => ⟨S4x3x131072, .f32⟩
  | .local _ .vmem, ⟨2, _⟩ => ⟨S4x3x131072, .f32⟩
  | .local _ .vmem, ⟨3, _⟩ => ⟨S4x3x131072, .f32⟩
  | .local _ .vmem, ⟨4, _⟩ => ⟨S1x1x131072, .f32⟩
  | .local _ .vmem, ⟨5, _⟩ => ⟨S1x1x131072, .f32⟩
  | .local _ .vmem, ⟨6, _⟩ => ⟨S8x128, .f32⟩
  | .local _ .vmem, ⟨7, _⟩ => ⟨S8x128, .f32⟩
  | _, _ => ⟨S4x1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_call2_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x3x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2996001x2_S2996001x1_0_0 : S2996001x2.Slices ![0, 0] S2996001x1
  shapeCasts_S2996001x1_S2996001 : S2996001x1.ShapeCasts S2996001
  slices_S2996001x2_S2996001x1_0_1 : S2996001x2.Slices ![0, 1] S2996001x1
  concatenates_S2996001_S2996001_S5992002_d0 : Shape.Concatenates [S2996001, S2996001] S5992002 0
  bcast_S_S5992002 : S_.BroadcastsInDim S5992002 (![] : Fin 0 → Fin S5992002.rank)
  bcast_S_S1048576 : S_.BroadcastsInDim S1048576 (![] : Fin 0 → Fin S1048576.rank)
  bcast_S5992002_S5992002x1_0 : S5992002.BroadcastsInDim S5992002x1 (![0] : Fin 1 → Fin S5992002x1.rank)
  transposes_S4x1000000x3_S1000000x4x3_1_0_2 : S4x1000000x3.Transposes [1, 0, 2] S1000000x4x3
  bcast_S_S1048576x4x3 : S_.BroadcastsInDim S1048576x4x3 (![] : Fin 0 → Fin S1048576x4x3.rank)
  transposes_S1048576x4x3_S4x3x1048576_1_2_0 : S1048576x4x3.Transposes [1, 2, 0] S4x3x1048576
  transposes_S4x1000000x3_S4x3x1000000_0_2_1 : S4x1000000x3.Transposes [0, 2, 1] S4x3x1000000
  pads_S4x3x1000000_S4x3x1048576_000_000_0485760 : S4x3x1000000.Pads (![0, 0, 0] : Fin 3 → Nat) ![0, 0, 48576] ![0, 0, 0] S4x3x1048576
  h_S_ : 0 < S_.numel
  shapeCasts_S1048576_S1x1x1048576 : S1048576.ShapeCasts S1x1x1048576
  inb_S4x3x131072_S4x3x131072_0_0_0 : ∀ a, (![0, 0, 0] : Fin 3 → Nat) a + S4x3x131072.size a ≤ S4x3x131072.size a
  h_S4x3x131072 : 0 < S4x3x131072.numel
  shapeCasts_S4x3x131072_S4x3x131072 : S4x3x131072.ShapeCasts S4x3x131072
  inb_S1x1x131072_S1x1x131072_0_0_0 : ∀ a, (![0, 0, 0] : Fin 3 → Nat) a + S1x1x131072.size a ≤ S1x1x131072.size a
  h_S1x1x131072 : 0 < S1x1x131072.numel
  shapeCasts_S1x1x131072_S1x1x131072 : S1x1x131072.ShapeCasts S1x1x131072
  broadcasts_S1x1x131072_S4x3x131072 : S1x1x131072.Broadcasts S4x3x131072
  reduces_S4x3x131072_S4x131072 : S4x3x131072.Reduces [1] S4x131072
  reduces_S4x131072_S131072 : S4x131072.Reduces [0] S131072
  shapeCasts_S131072_S1x131072 : S131072.ShapeCasts S1x131072
  iota_S1x131072_d1_w32 : S1x131072.Iotas .tc 32 [1]
  shapeCasts_S1x131072_S1024x128 : S1x131072.ShapeCasts S1024x128
  reduces_S1024x128_S128 : S1024x128.Reduces [0] S128
  shapeCasts_S128_S1x128 : S128.ShapeCasts S1x128
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  scatter_S1048576_S5992002x1_S5992002_n_0_0_1_wf : ScatterDims.WF S1048576 S5992002x1 S5992002 [] [0] [0] 1
  gather_S1000000x4x3_S5992002x1_S5992002x4x3_12_0_n_n_0_1_143_wf : GatherDims.WF S1000000x4x3 S5992002x1 S5992002x4x3 [1, 2] [0] [] [0] [] 1 ![1, 4, 3]
  scatter_S1048576x4x3_S5992002x1_S5992002x4x3_12_0_0_1_wf : ScatterDims.WF S1048576x4x3 S5992002x1 S5992002x4x3 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x131072.size a ≤ S4x3x1048576.size a
  hwx0_0 : ∀ i : grid0.Coords, EltTy.bits .f32 = 32 ∨ (Rect.block (s := S4x3x1048576) S4x3x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x131072.size a ≤ S4x3x1048576.size a
  hwx0_1 : ∀ i : grid0.Coords, EltTy.bits .f32 = 32 ∨ (Rect.block (s := S4x3x1048576) S4x3x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x131072.size a ≤ S1x1x1048576.size a
  hwx0_2 : ∀ i : grid0.Coords, EltTy.bits .f32 = 32 ∨ (Rect.block (s := S1x1x1048576) S1x1x131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def scatter_S1048576_S5992002x1_S5992002_n_0_0_1 : ScatterDims S1048576 S5992002x1 S5992002 where
  updateWindowDims := []
  insertedWindowDims := [0]
  scatterDimsToOperandDims := [0]
  indexVectorDim := 1
  wf := scatter_S1048576_S5992002x1_S5992002_n_0_0_1_wf
def gather_S1000000x4x3_S5992002x1_S5992002x4x3_12_0_n_n_0_1_143 : GatherDims S1000000x4x3 S5992002x1 S5992002x4x3 where
  offsetDims := [1, 2]
  collapsedSliceDims := [0]
  operandBatchingDims := []
  startIndicesBatchingDims := []
  startIndexMap := [0]
  indexVectorDim := 1
  sliceSizes := ![1, 4, 3]
  wf := gather_S1000000x4x3_S5992002x1_S5992002x4x3_12_0_n_n_0_1_143_wf
def scatter_S1048576x4x3_S5992002x1_S5992002x4x3_12_0_0_1 : ScatterDims S1048576x4x3 S5992002x1 S5992002x4x3 where
  updateWindowDims := [1, 2]
  insertedWindowDims := [0]
  scatterDimsToOperandDims := [0]
  indexVectorDim := 1
  wf := scatter_S1048576x4x3_S5992002x1_S5992002x4x3_12_0_0_1_wf

abbrev win0_0 : Pipeline.Window sig grid0 :=
  Pipeline.Window.ofSpec (Memref.whole main_v33) S4x3x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4x3x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x1x131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1000000x3 : Shape := ⟨3, ![4, 1000000, 3]⟩
abbrev S1996002x3 : Shape := ⟨2, ![1996002, 3]⟩
abbrev S2996001x2 : Shape := ⟨2, ![2996001, 2]⟩
abbrev S2996001x1 : Shape := ⟨2, ![2996001, 1]⟩
abbrev S2996001 : Shape := ⟨1, ![2996001]⟩
abbrev S5992002 : Shape := ⟨1, ![5992002]⟩
abbrev S_ : Shape := ⟨0, ![]⟩
abbrev S1000000 : Shape := ⟨1, ![1000000]⟩
abbrev S5992002x1 : Shape := ⟨2, ![5992002, 1]⟩
abbrev S4x5992002x3 : Shape := ⟨3, ![4, 5992002, 3]⟩
abbrev S5992002x4x3 : Shape := ⟨3, ![5992002, 4, 3]⟩
abbrev S1000000x4x3 : Shape := ⟨3, ![1000000, 4, 3]⟩
abbrev S1x1000000x1 : Shape := ⟨3, ![1, 1000000, 1]⟩
abbrev S4x1000000 : Shape := ⟨2, ![4, 1000000]⟩

abbrev nBuf : Space → Nat
  | .hbm => 63
  | .vmem => 0
  | .smem => 0
  | _ => 0

abbrev bufTy : (tb : Table) → Fin (tcTables nBuf tb) → BufTy
  | .hbm, ⟨0, _⟩ => ⟨S4x1000000x3, .f32⟩
  | .hbm, ⟨1, _⟩ => ⟨S1996002x3, .i32⟩
  | .hbm, ⟨2, _⟩ => ⟨S2996001x2, .i32⟩
  | .hbm, ⟨3, _⟩ => ⟨S2996001x1, .i32⟩
  | .hbm, ⟨4, _⟩ => ⟨S2996001, .i32⟩
  | .hbm, ⟨5, _⟩ => ⟨S2996001x1, .i32⟩
  | .hbm, ⟨6, _⟩ => ⟨S2996001, .i32⟩
  | .hbm, ⟨7, _⟩ => ⟨S5992002, .i32⟩
  | .hbm, ⟨8, _⟩ => ⟨S2996001x1, .i32⟩
  | .hbm, ⟨9, _⟩ => ⟨S2996001, .i32⟩
  | .hbm, ⟨10, _⟩ => ⟨S2996001x1, .i32⟩
  | .hbm, ⟨11, _⟩ => ⟨S2996001, .i32⟩
  | .hbm, ⟨12, _⟩ => ⟨S5992002, .i32⟩
  | .hbm, ⟨13, _⟩ => ⟨S_, .f32⟩
  | .hbm, ⟨14, _⟩ => ⟨S5992002, .f32⟩
  | .hbm, ⟨15, _⟩ => ⟨S_, .f32⟩
  | .hbm, ⟨16, _⟩ => ⟨S1000000, .f32⟩
  | .hbm, ⟨17, _⟩ => ⟨S5992002x1, .i32⟩
  | .hbm, ⟨18, _⟩ => ⟨S1000000, .f32⟩
  | .hbm, ⟨19, _⟩ => ⟨S_, .i32⟩
  | .hbm, ⟨20, _⟩ => ⟨S5992002, .i32⟩
  | .hbm, ⟨21, _⟩ => ⟨S5992002, .i1⟩
  | .hbm, ⟨22, _⟩ => ⟨S_, .i32⟩
  | .hbm, ⟨23, _⟩ => ⟨S5992002, .i32⟩
  | .hbm, ⟨24, _⟩ => ⟨S5992002, .i32⟩
  | .hbm, ⟨25, _⟩ => ⟨S5992002, .i32⟩
  | .hbm, ⟨26, _⟩ => ⟨S5992002x1, .i32⟩
  | .hbm, ⟨27, _⟩ => ⟨S4x5992002x3, .f32⟩
  | .hbm, ⟨28, _⟩ => ⟨S5992002x4x3, .f32⟩
  | .hbm, ⟨29, _⟩ => ⟨S_, .f32⟩
  | .hbm, ⟨30, _⟩ => ⟨S1000000x4x3, .f32⟩
  | .hbm, ⟨31, _⟩ => ⟨S5992002x1, .i32⟩
  | .hbm, ⟨32, _⟩ => ⟨S1000000x4x3, .f32⟩
  | .hbm, ⟨33, _⟩ => ⟨S4x1000000x3, .f32⟩
  | .hbm, ⟨34, _⟩ => ⟨S_, .f32⟩
  | .hbm, ⟨35, _⟩ => ⟨S1000000, .f32⟩
  | .hbm, ⟨36, _⟩ => ⟨S1000000, .i1⟩
  | .hbm, ⟨37, _⟩ => ⟨S_, .f32⟩
  | .hbm, ⟨38, _⟩ => ⟨S1000000, .f32⟩
  | .hbm, ⟨39, _⟩ => ⟨S1000000, .i1⟩
  | .hbm, ⟨40, _⟩ => ⟨S_, .f32⟩
  | .hbm, ⟨41, _⟩ => ⟨S_, .f32⟩
  | .hbm, ⟨42, _⟩ => ⟨S1000000, .f32⟩
  | .hbm, ⟨43, _⟩ => ⟨S1000000, .f32⟩
  | .hbm, ⟨44, _⟩ => ⟨S_, .f32⟩
  | .hbm, ⟨45, _⟩ => ⟨S1000000, .f32⟩
  | .hbm, ⟨46, _⟩ => ⟨S1000000, .f32⟩
  | .hbm, ⟨47, _⟩ => ⟨S_, .f32⟩
  | .hbm, ⟨48, _⟩ => ⟨S_, .f32⟩
  | .hbm, ⟨49, _⟩ => ⟨S1000000, .f32⟩
  | .hbm, ⟨50, _⟩ => ⟨S1000000, .f32⟩
  | .hbm, ⟨51, _⟩ => ⟨S1x1000000x1, .f32⟩
  | .hbm, ⟨52, _⟩ => ⟨S4x1000000x3, .f32⟩
  | .hbm, ⟨53, _⟩ => ⟨S4x1000000x3, .f32⟩
  | .hbm, ⟨54, _⟩ => ⟨S4x1000000x3, .f32⟩
  | .hbm, ⟨55, _⟩ => ⟨S4x1000000x3, .f32⟩
  | .hbm, ⟨56, _⟩ => ⟨S_, .f32⟩
  | .hbm, ⟨57, _⟩ => ⟨S4x1000000, .f32⟩
  | .hbm, ⟨58, _⟩ => ⟨S4x1000000, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4x1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  slices_S2996001x2_S2996001x1_0_0 : S2996001x2.Slices ![0, 0] S2996001x1
  shapeCasts_S2996001x1_S2996001 : S2996001x1.ShapeCasts S2996001
  slices_S2996001x2_S2996001x1_0_1 : S2996001x2.Slices ![0, 1] S2996001x1
  concatenates_S2996001_S2996001_S5992002_d0 : Shape.Concatenates [S2996001, S2996001] S5992002 0
  bcast_S_S5992002 : S_.BroadcastsInDim S5992002 (![] : Fin 0 → Fin S5992002.rank)
  bcast_S_S1000000 : S_.BroadcastsInDim S1000000 (![] : Fin 0 → Fin S1000000.rank)
  bcast_S5992002_S5992002x1_0 : S5992002.BroadcastsInDim S5992002x1 (![0] : Fin 1 → Fin S5992002x1.rank)
  transposes_S4x5992002x3_S5992002x4x3_1_0_2 : S4x5992002x3.Transposes [1, 0, 2] S5992002x4x3
  bcast_S_S1000000x4x3 : S_.BroadcastsInDim S1000000x4x3 (![] : Fin 0 → Fin S1000000x4x3.rank)
  transposes_S1000000x4x3_S4x1000000x3_1_0_2 : S1000000x4x3.Transposes [1, 0, 2] S4x1000000x3
  bcast_S1000000_S1x1000000x1_1 : S1000000.BroadcastsInDim S1x1000000x1 (![1] : Fin 1 → Fin S1x1000000x1.rank)
  bcast_S1x1000000x1_S4x1000000x3_0_1_2 : S1x1000000x1.BroadcastsInDim S4x1000000x3 (![0, 1, 2] : Fin 3 → Fin S4x1000000x3.rank)
  reducesTo_S4x1000000x3_S4x1000000_d2 : S4x1000000x3.ReducesTo [2] S4x1000000
  h_S_ : 0 < S_.numel
  reducesTo_S4x1000000_S_d0_1 : S4x1000000.ReducesTo [0, 1] S_
  scatter_S1000000_S5992002x1_S5992002_n_0_0_1_wf : ScatterDims.WF S1000000 S5992002x1 S5992002 [] [0] [0] 1
  gather_S4x1000000x3_S5992002x1_S4x5992002x3_02_1_n_n_1_1_413_wf : GatherDims.WF S4x1000000x3 S5992002x1 S4x5992002x3 [0, 2] [1] [] [1] [] 1 ![4, 1, 3]
  scatter_S1000000x4x3_S5992002x1_S5992002x4x3_12_0_0_1_wf : ScatterDims.WF S1000000x4x3 S5992002x1 S5992002x4x3 [1, 2] [0] [0] 1

variable [Facts₀]

def scatter_S1000000_S5992002x1_S5992002_n_0_0_1 : ScatterDims S1000000 S5992002x1 S5992002 where
  updateWindowDims := []
  insertedWindowDims := [0]
  scatterDimsToOperandDims := [0]
  indexVectorDim := 1
  wf := scatter_S1000000_S5992002x1_S5992002_n_0_0_1_wf
def gather_S4x1000000x3_S5992002x1_S4x5992002x3_02_1_n_n_1_1_413 : GatherDims S4x1000000x3 S5992002x1 S4x5992002x3 where
  offsetDims := [0, 2]
  collapsedSliceDims := [1]
  operandBatchingDims := []
  startIndicesBatchingDims := []
  startIndexMap := [1]
  indexVectorDim := 1
  sliceSizes := ![4, 1, 3]
  wf := gather_S4x1000000x3_S5992002x1_S4x5992002x3_02_1_n_n_1_1_413_wf
def scatter_S1000000x4x3_S5992002x1_S5992002x4x3_12_0_0_1 : ScatterDims S1000000x4x3 S5992002x1 S5992002x4x3 where
  updateWindowDims := [1, 2]
  insertedWindowDims := [0]
  scatterDimsToOperandDims := [0]
  indexVectorDim := 1
  wf := scatter_S1000000x4x3_S5992002x1_S5992002x4x3_12_0_0_1_wf

class Facts : Prop extends Facts₀ where

variable [Facts]
-- ==== Proof.KernelResult.lean ====
/-
  The kernel program's result buffer after the run.

  After the region the program adds up the 64 × 128 output array (a sum over both axes from the zero word) and divides
  the total by the word for 4,000,000 (= 4 meshes · 1,000,000 vertices). The run of the whole program leaves every
  buffer that is not one of the region's arrays at what these last operations compute from the region's final arrays;
  read at the result buffer, that is the quotient of the output array's total. The arguments end as launched.
-/
import proofs.«428575_j80934363726600_2_alg».proof.Proof.KernelIdealFrame
import Idealize.ShloMosaic.Lib.StableHlo.Run

set_option maxRecDepth 16384

noncomputable section

namespace Cert.KernelIdeal.Result

open Cert.KernelIdeal Cert.KernelIdeal.Gen Cert.KernelIdeal.GenP Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The total of an output array divided by 4,000,000: the two operations after the region, as one function of the
    array. -/
def scaledTotal (A : (⟨S64x128, .f32⟩ : BufTy).Contents (Elt F)) : (⟨S_, .f32⟩ : BufTy).Contents (Elt F) :=
  Host.divf (Host.reduceAdd A (constant S_ .f32 0x00000000#32) reducesTo_S64x128_S_d0_1 h_S_) (constant S_ .f32 0x4A742400#32)

/-- The operations after the region, read at the result buffer: the scaled total of the output window's array as the
    region leaves it (the other buffers they read are their own constants). -/
theorem tail_eq (c : Dev nD) :
    Pipeline.afterTail₀ cfgs (dats m) 0 (V0 m) [hostOps1] c main_v39 = scaledTotal (F := F) ((dats m 0 c).arrAt 3 cfg0.N) := by
  unfold Pipeline.afterTail₀
  show StableHlo.after hostOps1 _ (Proc.devRef .tc main_v39) = _
  after_results
  have h := Pipeline.withArrays_arr (cfgs 0).spec launch0.win.arr_inj c (V0 m c) (fun w => (dats m 0 c).arrAt w (cfgs 0).N) 3
  exact congrArg (fun A => Host.divf (Host.reduceAdd A (constant S_ .f32 0x00000000#32) reducesTo_S64x128_S_d0_1 h_S_) (constant S_ .f32 0x4A742400#32)) h

/-- Every weakly fair execution of the program terminates with the result buffer at the scaled total of the output
    array the region leaves, and the three arguments as launched. -/
theorem run_value : θ_run defs (onTc (τ := τ) (main (F := F))) ⟨m, fun _ => 0, ρ⟩ (fun r => ∀ c : Dev nD,
      r.2.mem ((c.tc : Thread nD τ).loc main_v39) = scaledTotal (F := F) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.KernelStages.lean ====
/-
  The arrays the kernel's region finds, as functions of the program's arguments.

  Before the region the program builds, from the edge list `e : [E, 2]` and the vertex positions `x : [4, V, 3]`
  (4 meshes, V = 1,000,000 vertices, 3 coordinates; E = 2,996,001 undirected edges, so 2E = 5,992,002 directed ones):
  the directed edges' start vertices `row` (column 0 of `e` followed by column 1) and end vertices `col` (column 1
  followed by column 0), a negative `col` moved up by V; the out-degree `deg` of every vertex slot (a sum of ones
  scattered by `row` into 1,048,576 = 8 · 131,072 slots, the first V of which are vertices); the neighbour sums `nbr`
  (the positions gathered at `col`, scattered by `row`); the weight `wgt = [deg > 0] / deg`; and the three arrays the
  region stages: `nbr` with the slot axis last, the positions with the vertex axis last and padded with zeros to the
  slot count, and the weights as a row. Each definition is one operation of the program applied to earlier ones.
-/
import proofs.«428575_j80934363726600_2_alg».proof.Proof.KernelIdealFrame
import Idealize.ShloMosaic.Lib.StableHlo.Run

set_option maxRecDepth 16384

noncomputable section

namespace Cert.KernelIdeal.Stages

open Cert.KernelIdeal Cert.KernelIdeal.Gen Cert.KernelIdeal.GenP Idealize.ShloMosaic Idealize.ShloMosaic.TcCoe Idealize.SL.Sem Idealize.ShloMosaic.StableHlo

variable {F : FTy → Type} [FloatOps F]

/-- The directed edges' start vertices: column 0 of the edge list, then column 1. -/
def rowVec (e : (⟨S2996001x2, .i32⟩ : BufTy).Contents (Elt F)) : (⟨S5992002, .i32⟩ : BufTy).Contents (Elt F) :=
  concatenate S5992002 0 [⟨S2996001, (shapeCast _ (extractStridedSlice S2996001x1 ![0, 0] e slices_S2996001x2_S2996001x1_0_0) shapeCasts_S2996001x1_S2996001)⟩, ⟨S2996001, (shapeCast _ (extractStridedSlice S2996001x1 ![0, 1] e slices_S2996001x2_S2996001x1_0_1) shapeCasts_S2996001x1_S2996001)⟩] concatenates_S2996001_S2996001_S5992002_d0

/-- The directed edges' end vertices: column 1 of the edge list, then column 0. -/
def colVec (e : (⟨S2996001x2, .i32⟩ : BufTy).Contents (Elt F)) : (⟨S5992002, .i32⟩ : BufTy).Contents (Elt F) :=
  concatenate S5992002 0 [⟨S2996001, (shapeCast _ (extractStridedSlice S2996001x1 ![0, 1] e slices_S2996001x2_S2996001x1_0_1) shapeCasts_S2996001x1_S2996001)⟩, ⟨S2996001, (shapeCast _ (extractStridedSlice S2996001x1 ![0, 0] e slices_S2996001x2_S2996001x1_0_0) shapeCasts_S2996001x1_S2996001)⟩] concatenates_S2996001_S2996001_S5992002_d0

/-- The start vertices as a column of scatter indices. -/
def rowIx (e : (⟨S2996001x2, .i32⟩ : BufTy).Contents (Elt F)) : (⟨S5992002x1, .i32⟩ : BufTy).Contents (Elt F) :=
  broadcastInDim S5992002x1 ![0] bcast_S5992002_S5992002x1_0 (rowVec (F := F) e)

/-- The end vertices, a negative one moved up by V, as a column of gather indices. -/
def colIx (e : (⟨S2996001x2, .i32⟩ : BufTy).Contents (Elt F)) : (⟨S5992002x1, .i32⟩ : BufTy).Contents (Elt F) :=
  broadcastInDim S5992002x1 ![0] bcast_S5992002_S5992002x1_0
    (select (cmpi .slt (colVec (F := F) e) (broadcastInDim S5992002 ![] bcast_S_S5992002 (constantI S_ 32 0#32)))
      (addi (colVec (F := F) e) (broadcastInDim S5992002 ![] bcast_S_S5992002 (constantI S_ 32 1000000#32)))
      (colVec (F := F) e))

/-- The out-degree of every slot: ones scattered by the start vertices and added up. -/
def deg (e : (⟨S2996001x2, .i32⟩ : BufTy).Contents (Elt F)) : (⟨S1048576, .f32⟩ : BufTy).Contents (Elt F) :=
  Host.scatterAdd scatter_S1048576_S5992002x1_S5992002_n_0_0_1 (broadcastInDim S1048576 ![] bcast_S_S1048576 (constant S_ .f32 0x00000000#32)) (rowIx (F := F) e) (broadcastInDim S5992002 ![] bcast_S_S5992002 (constant S_ .f32 0x3F800000#32))

/-- The positions of every directed edge's end vertex, all meshes and coordinates: the vertex-major positions
    gathered at the end vertices. -/
def gathered (x : (⟨S4x1000000x3, .f32⟩ : BufTy).Contents (Elt F)) (e : (⟨S2996001x2, .i32⟩ : BufTy).Contents (Elt F)) : (⟨S5992002x4x3, .f32⟩ : BufTy).Contents (Elt F) :=
  Host.gather gather_S1000000x4x3_S5992002x1_S5992002x4x3_12_0_n_n_0_1_143 (transpose S1000000x4x3 [1, 0, 2] x transposes_S4x1000000x3_S1000000x4x3_1_0_2) (colIx (F := F) e)

/-- The neighbour sums of every slot: the gathered positions scattered by the start vertices and added up. -/
def nbr (x : (⟨S4x1000000x3, .f32⟩ : BufTy).Contents (Elt F)) (e : (⟨S2996001x2, .i32⟩ : BufTy).Contents (Elt F)) : (⟨S1048576x4x3, .f32⟩ : BufTy).Contents (Elt F) :=
  Host.scatterAdd scatter_S1048576x4x3_S5992002x1_S5992002x4x3_12_0_0_1 (broadcastInDim S1048576x4x3 ![] bcast_S_S1048576x4x3 (constant S_ .f32 0x00000000#32)) (rowIx (F := F) e) (gathered (F := F) x e)

/-- The divisor of the weight: the degree where it is positive, one elsewhere. -/
def safeDeg (e : (⟨S2996001x2, .i32⟩ : BufTy).Contents (Elt F)) : (⟨S1048576, .f32⟩ : BufTy).Contents (Elt F) :=
  select (cmpf .ogt (deg (F := F) e) (broadcastInDim S1048576 ![] bcast_S_S1048576 (constant S_ .f32 0x00000000#32))) (deg (F := F) e)
    (broadcastInDim S1048576 ![] bcast_S_S1048576 (id (constant S_ .f32 0x3F800000#32)))

/-- The weight of every slot: one over the degree where the degree is positive, zero elsewhere. -/
def wgt (e : (⟨S2996001x2, .i32⟩ : BufTy).Contents (Elt F)) : (⟨S1048576, .f32⟩ : BufTy).Contents (Elt F) :=
  select (cmpf .ogt (deg (F := F) e) (broadcastInDim S1048576 ![] bcast_S_S1048576 (constant S_ .f32 0x00000000#32)))
    (Host.divf (broadcastInDim S1048576 ![] bcast_S_S1048576 (constant S_ .f32 0x3F800000#32)) (safeDeg (F := F) e))
    (broadcastInDim S1048576 ![] bcast_S_S1048576 (id (constant S_ .f32 0x00000000#32)))

/-- The neighbour sums with the slot axis last: what the region's first window stages. -/
def nbrT (x : (⟨S4x1000000x3, .f32⟩ : BufTy).Contents (Elt F)) (e : (⟨S2996001x2, .i32⟩ : BufTy).Contents (Elt F)) : (⟨S4x3x1048576, .f32⟩ : BufTy).Contents (Elt F) :=
  transpose S4x3x1048576 [1, 2, 0] (nbr (F := F) x e) transposes_S1048576x4x3_S4x3x1048576_1_2_0

/-- The positions with the vertex axis last, padded with zeros up to the slot count: the second window's array. -/
def vpad (x : (⟨S4x1000000x3, .f32⟩ : BufTy).Contents (Elt F)) : (⟨S4x3x1048576, .f32⟩ : BufTy).Contents (Elt F) :=
  pad S4x3x1048576 ![0, 0, 0] ![0, 0, 48576] ![0, 0, 0] (transpose S4x3x1000000 [0, 2, 1] x transposes_S4x1000000x3_S4x3x1000000_0_2_1) (sitofp .f32 (constantI S_ 32 0#32)) pads_S4x3x1000000_S4x3x1048576_000_000_0485760 h_S_

/-- The weights as a row `[1, 1, slots]`: the third window's array. -/
def wrow (e : (⟨S2996001x2, .i32⟩ : BufTy).Contents (Elt F)) : (⟨S1x1x1048576, .f32⟩ : BufTy).Contents (Elt F) :=
  shapeCast _ (wgt (F := F) e) shapeCasts_S1048576_S1x1x1048576

end Cert.KernelIdeal.Stages

end
-- ==== Proof.KernelEntry.lean ====
/-
  The region finds the staged arrays: at the region's entry the three arrays its input windows read hold the neighbour
  sums (slot axis last), the zero-padded positions (vertex axis last) and the weights' row, each as the function of the
  program's arguments that the host operations before the region compose to. The contents at the region's entry are the
  launch contents run through those operations in order; reading each of the three buffers back gives the composed
  term, which is the corresponding definition unfolded.
-/
import proofs.«428575_j80934363726600_2_alg».proof.Proof.KernelStages

set_option maxRecDepth 16384

noncomputable section

namespace Cert.KernelIdeal.Stages

open Cert.KernelIdeal Cert.KernelIdeal.Gen Cert.KernelIdeal.GenP Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The first window's array at the region's entry: the neighbour sums with the slot axis last. -/
theorem V_nbrT (c : Dev nD) : V m c main_v33 = nbrT (F := F) (m ((c : Thread nD τ).loc main_arg0)) (m ((c : Thread nD τ).loc main_arg2)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- The second window's array at the region's entry: the positions, vertex axis last, padded with zeros. -/
theorem V_vpad (c : Dev nD) : V m c main_v35 = vpad (F := F) (m ((c : Thread nD τ).loc main_arg0)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- The third window's array at the region's entry: the weights as a row. -/
theorem V_wrow (c : Dev nD) : V m c main_v36 = wrow (F := F) (m ((c : Thread nD τ).loc main_arg2)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  after_results
  rfl

end Cert.KernelIdeal.Stages

end
-- ==== Proof.LossSpec.lean ====
/-
  The uniform graph Laplacian's vertex weight, on the extended reals.

  A vertex of degree `d` (the number of directed edges that start at it, as an extended real) weighs `1 / d` when
  `d > 0` and `0` otherwise. Both programs compute it with a guarded quotient: the divisor is `d` where `d > 0` and
  `1` elsewhere, and the quotient is kept only where `d > 0`. Naming the function once lets the two programs' weight
  vectors be compared through their degrees alone.
-/
import Idealize.ShloMosaic.PureOps.Ideal

noncomputable section

namespace Cert.LossSpec

open Idealize.ShloMosaic

/-- The weight of a vertex of degree `d`: the guarded reciprocal `[d > 0] · 1 / (d if d > 0 else 1)`, with the
    constants `0` and `1` as the single-precision words both programs print. -/
def wOf (d : Ideal .f32) : Ideal .f32 :=
  Scalar.select (FloatOps.cmpf .ogt d (FloatOps.ofBits .f32 0x00000000#32))
    (FloatOps.hostDivf (FloatOps.ofBits .f32 0x3F800000#32)
      (Scalar.select (FloatOps.cmpf .ogt d (FloatOps.ofBits .f32 0x00000000#32)) d (FloatOps.ofBits .f32 0x3F800000#32)))
    (FloatOps.ofBits .f32 0x00000000#32)

end Cert.LossSpec

end
-- ==== Proof.LibVecScatterAdd.lean ====
/-
  An accumulating scatter of a vector of scalars into a vector, read at an index on the extended reals.

  The scatter takes an operand `x : [N]`, updates `upd : [R]` and indices as a column `idx : [R, 1]`, with an `add`
  body: no update window axis, inserted window axis 0, the scatter index naming operand axis 0 (the segment sum of
  `upd` by `idx`, added onto `x`). Update element `r` lands on operand element `idx[r, 0]` (the index read signed,
  NOT clamped; outside `[0, N)` the update is dropped). So element `n` of the result is `x n` plus the sum of `upd r`
  over the `r` whose index is `n`.
-/
import Idealize.ShloMosaic.Lib.ValueIdx
import Idealize.ShloMosaic.Lib.ValueIdxRank1
import Idealize.ShloMosaic.PureOps.Ideal.Laws

noncomputable section

namespace Idealize.ShloMosaic.ValueIdx

section VecScatterAdd

/-- Those dimension numbers for an operand `[N]`, scatter indices `[R, 1]` and updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: no operand axis is left for an update window. -/
theorem vs_not_mem_sKept {N R : Nat}
    (wf : ScatterDims.WF ⟨1, ![N]⟩ ⟨2, ![R, 1]⟩ ⟨1, ![R]⟩ [] [0] [0] 1) :
    (0 : Fin 1) ∉ (vecScatterDims N R wf).sKept := by
  show (0 : Fin 1) ∉ (List.finRange 1).filter (fun a => a ∉ [(0 : Fin 1)])
  decide

/-- On the operand's axis the window coordinate is `0`: an update is one scalar. -/
theorem vs_window {N R : Nat}
    (wf : ScatterDims.WF ⟨1, ![N]⟩ ⟨2, ![R, 1]⟩ ⟨1, ![R]⟩ [] [0] [0] 1) (r : Fin R) :
    (vecScatterDims N R wf).window (ix1 r) 0 = 0 := by
  unfold ScatterDims.window
  rw [dif_neg (vs_not_mem_sKept wf)]

/-- On the operand's axis the window starts at update `r`'s index `idx[r, 0]`, read signed. -/
theorem vs_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `r` lands on operand element `n` iff `r`'s index, read signed, is `n`. -/
theorem vecScatter_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start, vs_window]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start, vs_window] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start, vs_window]; omega
  · rename_i h
    constructor
    · intro he; cases he
    · intro e0
      exact absurd ⟨by omega, by omega⟩ h

/-- THE VECTOR SCATTER-ADD READ AT `n` on the extended reals: the operand's element plus the sum of the updates whose
    index is `n`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, ← Equiv.sum_comp (idxEquiv1 (n := R)).symm]
  refine Finset.sum_congr rfl (fun r _ => ?_)
  show (if (vecScatterDims N R wf).resultIdx? (ix1 r) idx = some (ix1 n) then upd (ix1 r) else 0) = _
  simp only [vecScatter_resultIdx_iff]

end VecScatterAdd

end Idealize.ShloMosaic.ValueIdx

end
-- ==== Proof.LibSlabScatterAdd.lean ====
/-
  An accumulating scatter of whole slabs, read at an index on the extended reals.

  The scatter takes an operand `x : [N, A, B]`, updates `upd : [R, A, B]` and indices as a column `idx : [R, 1]`,
  with an `add` body: update window axes 1 and 2, inserted window axis 0, the scatter index naming operand axis 0.
  Update element `(r, a', b')` lands on operand element `(idx[r, 0], a', b')` (the index read signed, NOT clamped;
  outside `[0, N)` the update is dropped). So element `(n, a, b)` of the result is the operand's plus the sum over
  the slabs `r` whose index is `n` of `upd (r, a, b)`: positions inside a slab never mix.
-/
import Idealize.ShloMosaic.Lib.ValueIdx
import Idealize.ShloMosaic.PureOps.Ideal.Laws

noncomputable section

namespace Idealize.ShloMosaic.ValueIdx

section SumIdx3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

end SumIdx3

section SlabScatterAdd

/-- Those dimension numbers for an operand `[N, A, B]`, scatter indices `[R, 1]` and updates `[R, A, B]`. -/
abbrev slabScatterDims (N R A B : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

/-- Operand axis 0 is the inserted window axis. -/
theorem ss_not_mem_sKept {N R A B : Nat}
    (wf : ScatterDims.WF ⟨3, ![N, A, B]⟩ ⟨2, ![R, 1]⟩ ⟨3, ![R, A, B]⟩ [1, 2] [0] [0] 1) :
    (0 : Fin 3) ∉ (slabScatterDims N R A B wf).sKept := by
  show (0 : Fin 3) ∉ (List.finRange 3).filter (fun a => a ∉ [(0 : Fin 3)])
  decide

/-- Operand axis 1 is not an inserted window axis: the first update window axis runs over it. -/
theorem ss_mem_sKept1 {N R A B : Nat}
    (wf : ScatterDims.WF ⟨3, ![N, A, B]⟩ ⟨2, ![R, 1]⟩ ⟨3, ![R, A, B]⟩ [1, 2] [0] [0] 1) :
    (1 : Fin 3) ∈ (slabScatterDims N R A B wf).sKept := by
  show (1 : Fin 3) ∈ (List.finRange 3).filter (fun a => a ∉ [(0 : Fin 3)])
  decide

/-- Operand axis 2 is not an inserted window axis: the second update window axis runs over it. -/
theorem ss_mem_sKept2 {N R A B : Nat}
    (wf : ScatterDims.WF ⟨3, ![N, A, B]⟩ ⟨2, ![R, 1]⟩ ⟨3, ![R, A, B]⟩ [1, 2] [0] [0] 1) :
    (2 : Fin 3) ∈ (slabScatterDims N R A B wf).sKept := by
  show (2 : Fin 3) ∈ (List.finRange 3).filter (fun a => a ∉ [(0 : Fin 3)])
  decide

/-- On operand axis 0 the window coordinate is `0`. -/
theorem ss_window0 {N R A B : Nat}
    (wf : ScatterDims.WF ⟨3, ![N, A, B]⟩ ⟨2, ![R, 1]⟩ ⟨3, ![R, A, B]⟩ [1, 2] [0] [0] 1) (r : Fin R) (a' : Fin A) (b' : Fin B) :
    (slabScatterDims N R A B wf).window (ix3 r a' b') 0 = 0 := by
  unfold ScatterDims.window
  rw [dif_neg (ss_not_mem_sKept wf)]

/-- On operand axis 1 the window coordinate is the update's middle coordinate `a'`. -/
theorem ss_window1 {N R A B : Nat}
    (wf : ScatterDims.WF ⟨3, ![N, A, B]⟩ ⟨2, ![R, 1]⟩ ⟨3, ![R, A, B]⟩ [1, 2] [0] [0] 1) (r : Fin R) (a' : Fin A) (b' : Fin B) :
    (slabScatterDims N R A B wf).window (ix3 r a' b') 1 = a'.val := by
  unfold ScatterDims.window
  rw [dif_pos (ss_mem_sKept1 wf)]
  rfl

/-- On operand axis 2 the window coordinate is the update's last coordinate `b'`. -/
theorem ss_window2 {N R A B : Nat}
    (wf : ScatterDims.WF ⟨3, ![N, A, B]⟩ ⟨2, ![R, 1]⟩ ⟨3, ![R, A, B]⟩ [1, 2] [0] [0] 1) (r : Fin R) (a' : Fin A) (b' : Fin B) :
    (slabScatterDims N R A B wf).window (ix3 r a' b') 2 = b'.val := by
  unfold ScatterDims.window
  rw [dif_pos (ss_mem_sKept2 wf)]
  rfl

/-- On operand axis 1, which the scatter index does not name, the window starts at `0`. -/
theorem ss_start1 {N R A B w : Nat}
    (wf : ScatterDims.WF ⟨3, ![N, A, B]⟩ ⟨2, ![R, 1]⟩ ⟨3, ![R, A, B]⟩ [1, 2] [0] [0] 1)
    (idx : IVec ⟨2, ![R, 1]⟩ w) (r : Fin R) (a' : Fin A) (b' : Fin B) :
    (slabScatterDims N R A B wf).start (ix3 r a' b') idx 1 = 0 := by
  unfold ScatterDims.start
  rw [dif_neg (show (1 : Fin 3) ∉ [(0 : Fin 3)] by decide)]

/-- On operand axis 2, which the scatter index does not name, the window starts at `0`. -/
theorem ss_start2 {N R A B w : Nat}
    (wf : ScatterDims.WF ⟨3, ![N, A, B]⟩ ⟨2, ![R, 1]⟩ ⟨3, ![R, A, B]⟩ [1, 2] [0] [0] 1)
    (idx : IVec ⟨2, ![R, 1]⟩ w) (r : Fin R) (a' : Fin A) (b' : Fin B) :
    (slabScatterDims N R A B wf).start (ix3 r a' b') idx 2 = 0 := by
  unfold ScatterDims.start
  rw [dif_neg (show (2 : Fin 3) ∉ [(0 : Fin 3)] by decide)]

/-- On operand axis 0 the window starts at slab `r`'s index `idx[r, 0]`, read signed. -/
theorem ss_start0 {N R A B w : Nat}
    (wf : ScatterDims.WF ⟨3, ![N, A, B]⟩ ⟨2, ![R, 1]⟩ ⟨3, ![R, A, B]⟩ [1, 2] [0] [0] 1)
    (idx : IVec ⟨2, ![R, 1]⟩ w) (r : Fin R) (a' : Fin A) (b' : Fin B) :
    (slabScatterDims N R A B wf).start (ix3 r a' b') idx 0 = (idx (ix2 r (0 : Fin 1))).toInt := by
  unfold ScatterDims.start
  rw [dif_pos (show (0 : Fin 3) ∈ (slabScatterDims N R A B wf).scatterDimsToOperandDims from
    List.mem_singleton.mpr rfl)]
  have hsi : (slabScatterDims N R A B wf).siIdx (ix3 r a' b')
      ⟨List.idxOf (0 : Fin 3) (slabScatterDims N R A B wf).scatterDimsToOperandDims,
        List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- Update element `(r, a', b')` lands on `(n, a, b)` iff slab `r`'s index, read signed, is `n`, and the positions
    inside the slab agree. -/
theorem slabScatter_resultIdx_iff {N R A B w : Nat}
    (wf : ScatterDims.WF ⟨3, ![N, A, B]⟩ ⟨2, ![R, 1]⟩ ⟨3, ![R, A, B]⟩ [1, 2] [0] [0] 1)
    (idx : IVec ⟨2, ![R, 1]⟩ w) (r : Fin R) (a' : Fin A) (b' : Fin B) (n : Fin N) (a : Fin A) (b : Fin B) :
    (slabScatterDims N R A B wf).resultIdx? (ix3 r a' b') idx = some (ix3 n a b)
      ↔ (idx (ix2 r (0 : Fin 1))).toInt = (n.val : Int) ∧ a' = a ∧ b' = b := by
  unfold ScatterDims.resultIdx?
  have hn := n.isLt
  have ha' := a'.isLt
  have hb' := b'.isLt
  split
  · rw [Option.some.injEq]
    constructor
    · intro he
      have e0 : ((slabScatterDims N R A B wf).start (ix3 r a' b') idx 0
          + ((slabScatterDims N R A B wf).window (ix3 r a' b') 0 : Nat)).toNat = n.val :=
        congrArg (fun f => (f 0).val) he
      have e1 : ((slabScatterDims N R A B wf).start (ix3 r a' b') idx 1
          + ((slabScatterDims N R A B wf).window (ix3 r a' b') 1 : Nat)).toNat = a.val :=
        congrArg (fun f => (f 1).val) he
      have e2 : ((slabScatterDims N R A B wf).start (ix3 r a' b') idx 2
          + ((slabScatterDims N R A B wf).window (ix3 r a' b') 2 : Nat)).toNat = b.val :=
        congrArg (fun f => (f 2).val) he
      rename_i h
      have h0 := (h 0).1
      rw [ss_start0, ss_window0] at e0 h0
      rw [ss_start1, ss_window1] at e1
      rw [ss_start2, ss_window2] at e2
      exact ⟨by omega, Fin.ext (by omega), Fin.ext (by omega)⟩
    · rintro ⟨e0, e1, e2⟩
      funext c
      refine Fin.ext ?_
      match c with
      | ⟨0, _⟩ =>
        show ((slabScatterDims N R A B wf).start (ix3 r a' b') idx 0
          + ((slabScatterDims N R A B wf).window (ix3 r a' b') 0 : Nat)).toNat = n.val
        rw [ss_start0, ss_window0]; omega
      | ⟨1, _⟩ =>
        show ((slabScatterDims N R A B wf).start (ix3 r a' b') idx 1
          + ((slabScatterDims N R A B wf).window (ix3 r a' b') 1 : Nat)).toNat = a.val
        rw [ss_start1, ss_window1, e1]; omega
      | ⟨2, _⟩ =>
        show ((slabScatterDims N R A B wf).start (ix3 r a' b') idx 2
          + ((slabScatterDims N R A B wf).window (ix3 r a' b') 2 : Nat)).toNat = b.val
        rw [ss_start2, ss_window2, e2]; omega
  · rename_i h
    constructor
    · intro he; cases he
    · rintro ⟨e0, e1, e2⟩
      refine absurd (fun c => ?_) h
      match c with
      | ⟨0, _⟩ =>
        show 0 ≤ (slabScatterDims N R A B wf).start (ix3 r a' b') idx 0
            + ((slabScatterDims N R A B wf).window (ix3 r a' b') 0 : Nat)
          ∧ (slabScatterDims N R A B wf).start (ix3 r a' b') idx 0
            + ((slabScatterDims N R A B wf).window (ix3 r a' b') 0 : Nat) < (N : Int)
        rw [ss_start0, ss_window0]; omega
      | ⟨1, _⟩ =>
        show 0 ≤ (slabScatterDims N R A B wf).start (ix3 r a' b') idx 1
            + ((slabScatterDims N R A B wf).window (ix3 r a' b') 1 : Nat)
          ∧ (slabScatterDims N R A B wf).start (ix3 r a' b') idx 1
            + ((slabScatterDims N R A B wf).window (ix3 r a' b') 1 : Nat) < (A : Int)
        rw [ss_start1, ss_window1]; omega
      | ⟨2, _⟩ =>
        show 0 ≤ (slabScatterDims N R A B wf).start (ix3 r a' b') idx 2
            + ((slabScatterDims N R A B wf).window (ix3 r a' b') 2 : Nat)
          ∧ (slabScatterDims N R A B wf).start (ix3 r a' b') idx 2
            + ((slabScatterDims N R A B wf).window (ix3 r a' b') 2 : Nat) < (B : Int)
        rw [ss_start2, ss_window2]; omega

/-- THE SLAB SCATTER-ADD READ AT `(n, a, b)` on the extended reals: the operand's element plus the sum, over the slabs
    whose index is `n`, of the update's element at position `(a, b)` of the slab. -/
theorem slabScatterAdd_apply {N R A B w : Nat}
    (wf : ScatterDims.WF ⟨3, ![N, A, B]⟩ ⟨2, ![R, 1]⟩ ⟨3, ![R, A, B]⟩ [1, 2] [0] [0] 1)
    (x : (⟨3, ![N, A, B]⟩ : Shape).Idx → EReal) (idx : IVec ⟨2, ![R, 1]⟩ w)
    (upd : (⟨3, ![R, A, B]⟩ : Shape).Idx → EReal) (n : Fin N) (a : Fin A) (b : Fin B) :
    Ideal.hostScatterAdd (slabScatterDims N R A B wf) x idx upd (ix3 n a b)
      = x (ix3 n a b)
        + ∑ r : Fin R, if (idx (ix2 r (0 : Fin 1))).toInt = (n.val : Int) then upd (ix3 r a b) else 0 := by
  show x (ix3 n a b) + ∑ j ∈ Finset.univ.filter
      (fun j => (slabScatterDims N R A B wf).resultIdx? j idx = some (ix3 n a b)), upd j = _
  congr 1
  rw [Finset.sum_filter, sum_idx3]
  refine Finset.sum_congr rfl (fun r _ => ?_)
  simp only [slabScatter_resultIdx_iff]
  by_cases h : (idx (ix2 r (0 : Fin 1))).toInt = (n.val : Int)
  · simp only [h, true_and]
    rw [Finset.sum_eq_single a, Finset.sum_eq_single b]
    · simp only [and_self, if_true]
    · intro b' _ hb'
      simp only [hb', and_false, if_false]
    · intro hb; exact absurd (Finset.mem_univ b) hb
    · intro a' _ ha'
      refine Finset.sum_eq_zero (fun b' _ => ?_)
      simp only [ha', false_and, if_false]
    · intro ha; exact absurd (Finset.mem_univ a) ha
  · simp only [h, false_and, if_false, Finset.sum_const_zero]

end SlabScatterAdd

end Idealize.ShloMosaic.ValueIdx

end
-- ==== Proof.LibSlabGather.lean ====
/-
  A gather of whole slabs of a rank-3 array along one axis, read at an index.

  The start indices are a column `idx : [R, 1]` of row numbers (the index vector on axis 1); every start index is
  read signed and clamped into `[0, N − 1]`, where `N` is the extent of the gathered axis.

  (i)  Along axis 0: operand `x : [N, A, B]`, result `[R, A, B]`, offset axes `[1, 2]`, the collapsed slice axis
       `0`, start index map `[0]`, slice sizes `[1, A, B]`. Result element `(r, a, b)` is `x (row r, a, b)`.
  (ii) Along axis 1: operand `x : [A, N, B]`, result `[A, R, B]`, offset axes `[0, 2]`, the collapsed slice axis
       `1`, start index map `[1]`, slice sizes `[A, 1, B]`. Result element `(a, r, b)` is `x (a, row r, b)`.

  In both the gather selects whole slabs, so any function applied slab by slab commutes with it.
-/
import Idealize.ShloMosaic.Lib.ValueIdx

noncomputable section

namespace Idealize.ShloMosaic.ValueIdx

section SlabGather
variable {α : Type}

/-- The position on the gathered axis that result row `r` reads: its start index `idx[r, 0]`, read signed and
    clamped into `[0, N − 1]`. -/
def slabRow {N R w : Nat} (hN : 0 < N) (idx : IVec ⟨2, ![R, 1]⟩ w) (r : Fin R) : Fin N :=
  ⟨min (idx (ix2 r (0 : Fin 1))).toInt.toNat (N - 1), by omega⟩

/-- The dimension numbers of the gather along axis 0: operand `[N, A, B]`, start indices `[R, 1]`, result
    `[R, A, B]`; axis 0 collapsed and start-indexed, axes 1 and 2 kept whole as the result's offset axes. -/
abbrev slabGatherDims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER ALONG AXIS 0 READ AT `(r, a, b)`: the operand at the row `r` reads and the same `(a, b)`. -/
theorem slabGather_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (slabGatherDims N R A B wf) x idx (ix3 r a b) = x (ix3 (slabRow hN idx r) a b) := by
  unfold Host.gather
  congr 1
  funext c
  refine Fin.ext ?_
  match c with
  | ⟨0, _⟩ =>
    -- the gathered axis: collapsed and start-indexed, so no batching part and no offset part
    show (slabGatherDims N R A B wf).start (ix3 r a b) idx 0 + (slabGatherDims N R A B wf).batchCoord (ix3 r a b) 0
      + (slabGatherDims N R A B wf).offCoord (ix3 r a b) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N R A B wf).startIndexMap from List.mem_singleton.mpr rfl)]
    -- the start index is read at the result's batch coordinate `r`, component 0 of the index vector
    have hsi : (slabGatherDims N R A B wf).siIdx (ix3 r a b)
        ⟨List.idxOf (0 : Fin 3) (slabGatherDims N R A B wf).startIndexMap,
          List.idxOf_lt_length_iff.2 (List.mem_singleton.mpr rfl)⟩ = ix2 r (0 : Fin 1) := by
      funext e; refine Fin.ext ?_
      match e with
      | ⟨0, _⟩ => rfl
      | ⟨1, _⟩ => rfl
    rw [hsi]
    rfl
  | ⟨1, _⟩ =>
    -- operand axis 1: kept, the first of the kept axes, read off the result's first offset axis; not start-indexed
    show (slabGatherDims N R A B wf).start (ix3 r a b) idx 1 + (slabGatherDims N R A B wf).batchCoord (ix3 r a b) 1
      + (slabGatherDims N R A B wf).offCoord (ix3 r a b) 1 = a.val
    have hmem : (1 : Fin 3) ∈ (slabGatherDims N R A B wf).sKept :=
      (GatherDims.mem_sKept _ _).mpr ⟨show (1 : Fin 3) ∉ [(0 : Fin 3)] by decide, List.not_mem_nil⟩
    have hnot : (1 : Fin 3) ∉ (slabGatherDims N R A B wf).startIndexMap := show (1 : Fin 3) ∉ [(0 : Fin 3)] by decide
    rw [GatherDims.batchCoord_eq_zero _ _ _ List.not_mem_nil]
    unfold GatherDims.start GatherDims.offCoord
    rw [dif_neg hnot, dif_pos hmem]
    simp only [Nat.zero_add]
    rfl
  | ⟨2, _⟩ =>
    -- operand axis 2: kept, the second of the kept axes, read off the result's second offset axis; not start-indexed
    show (slabGatherDims N R A B wf).start (ix3 r a b) idx 2 + (slabGatherDims N R A B wf).batchCoord (ix3 r a b) 2
      + (slabGatherDims N R A B wf).offCoord (ix3 r a b) 2 = b.val
    have hmem : (2 : Fin 3) ∈ (slabGatherDims N R A B wf).sKept :=
      (GatherDims.mem_sKept _ _).mpr ⟨show (2 : Fin 3) ∉ [(0 : Fin 3)] by decide, List.not_mem_nil⟩
    have hnot : (2 : Fin 3) ∉ (slabGatherDims N R A B wf).startIndexMap := show (2 : Fin 3) ∉ [(0 : Fin 3)] by decide
    rw [GatherDims.batchCoord_eq_zero _ _ _ List.not_mem_nil]
    unfold GatherDims.start GatherDims.offCoord
    rw [dif_neg hnot, dif_pos hmem]
    simp only [Nat.zero_add]
    rfl

/-- The dimension numbers of the gather along axis 1: operand `[A, N, B]`, start indices `[R, 1]`, result
    `[A, R, B]`; axis 1 collapsed and start-indexed, axes 0 and 2 kept whole as the result's offset axes. -/
abbrev midGatherDims (A N R B : Nat)
    (wf : GatherDims.WF ⟨3, ![A, N, B]⟩ ⟨2, ![R, 1]⟩ ⟨3, ![A, R, B]⟩ [0, 2] [1] [] [1] [] 1 ![A, 1, B]) :
    GatherDims ⟨3, ![A, N, B]⟩ ⟨2, ![R, 1]⟩ ⟨3, ![A, R, B]⟩ where
  offsetDims := [0, 2]
  collapsedSliceDims := [1]
  operandBatchingDims := []
  startIndicesBatchingDims := []
  startIndexMap := [1]
  indexVectorDim := 1
  sliceSizes := ![A, 1, B]
  wf := wf

/-- THE SLAB GATHER ALONG AXIS 1 READ AT `(a, r, b)`: the operand at the same `a`, the row `r` reads, the same `b`. -/
theorem midGather_apply {A N R B w : Nat} (hN : 0 < N)
    (wf : GatherDims.WF ⟨3, ![A, N, B]⟩ ⟨2, ![R, 1]⟩ ⟨3, ![A, R, B]⟩ [0, 2] [1] [] [1] [] 1 ![A, 1, B])
    (x : (⟨3, ![A, N, B]⟩ : Shape).Idx → α) (idx : IVec ⟨2, ![R, 1]⟩ w) (a : Fin A) (r : Fin R) (b : Fin B) :
    Host.gather (midGatherDims A N R B wf) x idx (ix3 a r b) = x (ix3 a (slabRow hN idx r) b) := by
  unfold Host.gather
  congr 1
  funext c
  refine Fin.ext ?_
  match c with
  | ⟨0, _⟩ =>
    -- operand axis 0: kept, the first of the kept axes, read off the result's first offset axis (axis 0)
    show (midGatherDims A N R B wf).start (ix3 a r b) idx 0 + (midGatherDims A N R B wf).batchCoord (ix3 a r b) 0
      + (midGatherDims A N R B wf).offCoord (ix3 a r b) 0 = a.val
    have hmem : (0 : Fin 3) ∈ (midGatherDims A N R B wf).sKept :=
      (GatherDims.mem_sKept _ _).mpr ⟨show (0 : Fin 3) ∉ [(1 : Fin 3)] by decide, List.not_mem_nil⟩
    have hnot : (0 : Fin 3) ∉ (midGatherDims A N R B wf).startIndexMap := show (0 : Fin 3) ∉ [(1 : Fin 3)] by decide
    rw [GatherDims.batchCoord_eq_zero _ _ _ List.not_mem_nil]
    unfold GatherDims.start GatherDims.offCoord
    rw [dif_neg hnot, dif_pos hmem]
    simp only [Nat.zero_add]
    rfl
  | ⟨1, _⟩ =>
    -- the gathered axis: collapsed and start-indexed, so no batching part and no offset part
    show (midGatherDims A N R B wf).start (ix3 a r b) idx 1 + (midGatherDims A N R B wf).batchCoord (ix3 a r b) 1
      + (midGatherDims A N R B wf).offCoord (ix3 a r b) 1 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims A N R B wf).startIndexMap from List.mem_singleton.mpr rfl)]
    -- the start index is read at the result's batch coordinate `r` (result axis 1), component 0 of the index vector
    have hsi : (midGatherDims A N R B wf).siIdx (ix3 a r b)
        ⟨List.idxOf (1 : Fin 3) (midGatherDims A N R B wf).startIndexMap,
          List.idxOf_lt_length_iff.2 (List.mem_singleton.mpr rfl)⟩ = ix2 r (0 : Fin 1) := by
      funext e; refine Fin.ext ?_
      match e with
      | ⟨0, _⟩ => rfl
      | ⟨1, _⟩ => rfl
    rw [hsi]
    rfl
  | ⟨2, _⟩ =>
    -- operand axis 2: kept, the second of the kept axes, read off the result's second offset axis (axis 2)
    show (midGatherDims A N R B wf).start (ix3 a r b) idx 2 + (midGatherDims A N R B wf).batchCoord (ix3 a r b) 2
      + (midGatherDims A N R B wf).offCoord (ix3 a r b) 2 = b.val
    have hmem : (2 : Fin 3) ∈ (midGatherDims A N R B wf).sKept :=
      (GatherDims.mem_sKept _ _).mpr ⟨show (2 : Fin 3) ∉ [(1 : Fin 3)] by decide, List.not_mem_nil⟩
    have hnot : (2 : Fin 3) ∉ (midGatherDims A N R B wf).startIndexMap := show (2 : Fin 3) ∉ [(1 : Fin 3)] by decide
    rw [GatherDims.batchCoord_eq_zero _ _ _ List.not_mem_nil]
    unfold GatherDims.start GatherDims.offCoord
    rw [dif_neg hnot, dif_pos hmem]
    simp only [Nat.zero_add]
    rfl

end SlabGather

end Idealize.ShloMosaic.ValueIdx

end
-- ==== Proof.KernelStagesAt.lean ====
/-
  The kernel program's staged arrays read at an index, on the extended reals.

  The program builds, before its region, three arrays over the 1,048,576 vertex slots (the first 1,000,000 are the
  vertices): the neighbour sums with the slot axis last, the positions with the vertex axis last and padded with
  zeros, and the vertex weights as a row. Each is read here at one index:

  * the neighbour sum of slot `j`, mesh `n`, coordinate `c` is the sum, over the directed edges `r` whose start
    vertex (read signed, not clamped) is `j`, of the position `x (n, end r, c)`, the end vertex read clamped into
    `[0, 999999]`;
  * the degree of slot `j` is the sum of the word `1.0` over those same edges;
  * the weight of slot `j` is the guarded reciprocal of its degree;
  * the padded positions at a slot `j` below 1,000,000 are the positions of vertex `j`.
-/
import proofs.«428575_j80934363726600_2_alg».proof.Proof.KernelStages
import proofs.«428575_j80934363726600_2_alg».proof.Proof.LossSpec
import proofs.«428575_j80934363726600_2_alg».proof.Proof.LibVecScatterAdd
import proofs.«428575_j80934363726600_2_alg».proof.Proof.LibSlabScatterAdd
import proofs.«428575_j80934363726600_2_alg».proof.Proof.LibSlabGather
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

namespace Cert.KernelIdeal.StagesAt

open Cert.KernelIdeal Cert.KernelIdeal.Gen Cert.KernelIdeal.Stages Idealize.ShloMosaic Idealize.ShloMosaic.ValueIdx

/-- A scalar constant broadcast to any shape reads, at every index, the extended real its word encodes. -/
theorem bcastConst_apply {T : Shape} {φ : FTy} (h : S_.BroadcastsInDim T (![] : Fin 0 → Fin T.rank)) (b : BitVec φ.bits)
    (i : T.Idx) : broadcastInDim T ![] h (constant (F := Ideal) S_ φ b) i = Ideal.ofBits φ b := rfl

/-- The same through an identity wrapper (what a called function's conversion at one format leaves). -/
theorem bcastConstId_apply {T : Shape} {φ : FTy} (h : S_.BroadcastsInDim T (![] : Fin 0 → Fin T.rank)) (b : BitVec φ.bits)
    (i : T.Idx) : broadcastInDim T ![] h (id (constant (F := Ideal) S_ φ b)) i = Ideal.ofBits φ b := rfl

/-- The host's quotient at an index is the instance's host division of the elements. -/
theorem hostDivf_at {s : Shape} {φ : FTy} (a b : FVec Ideal s φ) (i : s.Idx) :
    Host.divf a b i = FloatOps.hostDivf (a i) (b i) := rfl

/-- The printed dimension numbers of the degree scatter are the vector scatter's. -/
theorem scatter_deg_eq : scatter_S1048576_S5992002x1_S5992002_n_0_0_1
    = vecScatterDims 1048576 5992002 scatter_S1048576_S5992002x1_S5992002_n_0_0_1_wf := rfl

/-- The printed dimension numbers of the neighbour-sum scatter are the slab scatter's. -/
theorem scatter_nbr_eq : scatter_S1048576x4x3_S5992002x1_S5992002x4x3_12_0_0_1
    = slabScatterDims 1048576 5992002 4 3 scatter_S1048576x4x3_S5992002x1_S5992002x4x3_12_0_0_1_wf := rfl

/-- The printed dimension numbers of the position gather are the slab gather's along axis 0. -/
theorem gather_nbr_eq : gather_S1000000x4x3_S5992002x1_S5992002x4x3_12_0_n_n_0_1_143
    = slabGatherDims 1000000 5992002 4 3 gather_S1000000x4x3_S5992002x1_S5992002x4x3_12_0_n_n_0_1_143_wf := rfl

/-- The gathered positions at `(r, n, c)`: the position of directed edge `r`'s end vertex (read clamped into the
    vertex range) in mesh `n`, coordinate `c`. A slab gather along axis 0 of the vertex-major positions. -/
theorem gathered_apply (x : (⟨S4x1000000x3, .f32⟩ : BufTy).Contents (Elt Ideal)) (e : (⟨S2996001x2, .i32⟩ : BufTy).Contents (Elt Ideal))
    (r : Fin 5992002) (n : Fin 4) (c : Fin 3) :
    gathered (F := Ideal) x e (ix3 r n c)
      = x (ix3 n (slabRow (by decide : 0 < 1000000) (colIx (F := Ideal) e) r) c) := by
  unfold gathered
  rw [gather_nbr_eq, slabGather_apply (by decide : 0 < 1000000)]
  -- the vertex-major positions are the transpose [1, 0, 2] of the positions: result axes (vertex, mesh, coordinate)
  exact transpose_apply [1, 0, 2] x transposes_S4x1000000x3_S1000000x4x3_1_0_2 _
    (ix3 n (slabRow (by decide : 0 < 1000000) (colIx (F := Ideal) e) r) c)
    (fun b => by match b with | ⟨0, _⟩ => rfl | ⟨1, _⟩ => rfl | ⟨2, _⟩ => rfl)

/-- The neighbour sums at `(j, n, c)`: the sum of the gathered positions `(r, n, c)` over the directed edges `r` whose
    start vertex, read signed, is `j`. A slab scatter-add onto zeros. -/
theorem nbr_apply (x : (⟨S4x1000000x3, .f32⟩ : BufTy).Contents (Elt Ideal)) (e : (⟨S2996001x2, .i32⟩ : BufTy).Contents (Elt Ideal))
    (j : Fin 1048576) (n : Fin 4) (c : Fin 3) :
    nbr (F := Ideal) x e (ix3 j n c)
      = ∑ r : Fin 5992002, if (rowIx (F := Ideal) e (ix2 r (0 : Fin 1))).toInt = (j.val : Int)
          then x (ix3 n (slabRow (by decide : 0 < 1000000) (colIx (F := Ideal) e) r) c) else 0 := by
  unfold nbr
  rw [Host.scatterAdd, Ideal.hostScatterAdd_def, scatter_nbr_eq, slabScatterAdd_apply, bcastConst_apply,
    Ideal.ofBits_zero_f32, zero_add]
  refine Finset.sum_congr rfl (fun r _ => ?_)
  rw [gathered_apply]

/-- THE NEIGHBOUR SUMS, SLOT AXIS LAST, AT `(n, c, j)`. -/
theorem nbrT_apply (x : (⟨S4x1000000x3, .f32⟩ : BufTy).Contents (Elt Ideal)) (e : (⟨S2996001x2, .i32⟩ : BufTy).Contents (Elt Ideal))
    (n : Fin 4) (c : Fin 3) (j : Fin 1048576) :
    nbrT (F := Ideal) x e (ix3 n c j)
      = ∑ r : Fin 5992002, if (rowIx (F := Ideal) e (ix2 r (0 : Fin 1))).toInt = (j.val : Int)
          then x (ix3 n (slabRow (by decide : 0 < 1000000) (colIx (F := Ideal) e) r) c) else 0 := by
  unfold nbrT
  -- the transpose [1, 2, 0] of (slot, mesh, coordinate): result axes (mesh, coordinate, slot)
  rw [transpose_apply [1, 2, 0] (nbr (F := Ideal) x e) transposes_S1048576x4x3_S4x3x1048576_1_2_0 (ix3 n c j) (ix3 j n c)
    (fun b => by match b with | ⟨0, _⟩ => rfl | ⟨1, _⟩ => rfl | ⟨2, _⟩ => rfl)]
  exact nbr_apply x e j n c

/-- THE DEGREE OF SLOT `j`: the word `1.0` added up over the directed edges whose start vertex, read signed, is `j`. A
    vector scatter-add of ones onto zeros. -/
theorem deg_apply (e : (⟨S2996001x2, .i32⟩ : BufTy).Contents (Elt Ideal)) (j : Fin 1048576) :
    deg (F := Ideal) e (ix1 j)
      = ∑ r : Fin 5992002, if (rowIx (F := Ideal) e (ix2 r (0 : Fin 1))).toInt = (j.val : Int)
          then Ideal.ofBits .f32 0x3F800000#32 else 0 := by
  unfold deg
  rw [Host.scatterAdd, Ideal.hostScatterAdd_def, scatter_deg_eq, vecScatterAdd_apply, bcastConst_apply,
    Ideal.ofBits_zero_f32, zero_add]
  refine Finset.sum_congr rfl (fun r _ => ?_)
  rw [bcastConst_apply]

/-- The weight of slot `j`: the guarded reciprocal of its degree. Both selects, the comparison and the quotient act
    element by element, and every constant is a broadcast scalar. -/
theorem wgt_apply (e : (⟨S2996001x2, .i32⟩ : BufTy).Contents (Elt Ideal)) (j : Fin 1048576) :
    wgt (F := Ideal) e (ix1 j) = Cert.LossSpec.wOf (deg (F := Ideal) e (ix1 j)) := by
  unfold wgt safeDeg Cert.LossSpec.wOf
  rw [select_apply, cmpf_apply, hostDivf_at, select_apply, cmpf_apply]
  rw [bcastConstId_apply, bcastConstId_apply, bcastConst_apply, bcastConst_apply]
  rw [Ideal.ofBits_def, Ideal.ofBits_def]

/-- THE WEIGHT ROW AT `(0, 0, j)`: the weight of slot `j`, the guarded reciprocal of its degree. -/
theorem wrow_apply (e : (⟨S2996001x2, .i32⟩ : BufTy).Contents (Elt Ideal)) (j : Fin 1048576) :
    wrow (F := Ideal) e (ix3 (0 : Fin 1) (0 : Fin 1) j) = Cert.LossSpec.wOf (deg (F := Ideal) e (ix1 j)) := by
  unfold wrow
  -- a reshape keeps the row-major position: slot `j` of the vector is entry `(0, 0, j)` of the row
  rw [shapeCast_apply (wgt (F := Ideal) e) shapeCasts_S1048576_S1x1x1048576 (ix3 (0 : Fin 1) (0 : Fin 1) j) (ix1 j)
    (by rw [Shape.rowMajor_val_one, Shape.rowMajor_val_three]; show j.val = (0 * 1 + 0) * 1048576 + j.val; omega)]
  exact wgt_apply e j

/-- THE PADDED POSITIONS AT `(n, c, j)` FOR A SLOT `j` BELOW 1,000,000: the position of vertex `j`. The padding is all
    on the high side of the slot axis, so a slot below the vertex count is inside the operand. -/
theorem vpad_apply (x : (⟨S4x1000000x3, .f32⟩ : BufTy).Contents (Elt Ideal))
    (n : Fin 4) (c : Fin 3) (j : Fin 1048576) (hj : j.val < 1000000) :
    vpad (F := Ideal) x (ix3 n c j) = x (ix3 n ⟨j.val, hj⟩ c) := by
  unfold vpad
  rw [pad_apply_of_inside ![0, 0, 0] ![0, 0, 48576] ![0, 0, 0]
    (transpose S4x3x1000000 [0, 2, 1] x transposes_S4x1000000x3_S4x3x1000000_0_2_1) _
    pads_S4x3x1000000_S4x3x1048576_000_000_0485760 h_S_ (ix3 n c j) (ix3 n c (⟨j.val, hj⟩ : Fin 1000000))
    (fun a => by
      match a with
      | ⟨0, _⟩ => show n.val = 0 + n.val * (0 + 1); omega
      | ⟨1, _⟩ => show c.val = 0 + c.val * (0 + 1); omega
      | ⟨2, _⟩ => show j.val = 0 + j.val * (0 + 1); omega)]
  -- the transpose [0, 2, 1] of (mesh, vertex, coordinate): result axes (mesh, coordinate, vertex)
  exact transpose_apply [0, 2, 1] x transposes_S4x1000000x3_S4x3x1000000_0_2_1 _ (ix3 n (⟨j.val, hj⟩ : Fin 1000000) c)
    (fun b => by match b with | ⟨0, _⟩ => rfl | ⟨1, _⟩ => rfl | ⟨2, _⟩ => rfl)

end Cert.KernelIdeal.StagesAt

end
-- ==== Proof.TileLossAt.lean ====
/-
  The value one grid point stores, read at an index on the extended reals.

  A tile is 131,072 = 1024 · 128 consecutive slots. From the tile's block of neighbour sums x0 (mesh, coordinate, lane), of
  positions x1 and of weights x2 (one row of lanes) the body forms, lane by lane, (x0 · x2 − x1), squares it, adds the
  three coordinates, takes the square root (the norm of the Laplacian at that mesh and slot) and adds the four meshes.
  A lane whose global position i · 131072 + l is not below 1,000,000 is a padding slot and is replaced by zero; the
  position is a 32-bit sum that cannot wrap, since it stays below 2^20. The lanes are then read row-major as 1024 rows of
  128 and added down the rows, and that row of 128 partial sums becomes row 0 of the 8 × 128 block the point stores, the
  other seven rows being zero. Each operation of the body that is not pointwise (the sums over an axis, the row-major
  recast, the join of row 0 with the zero rows, the mask) is read at an index once, over vectors of the literal shapes,
  and the stored value at (r, q) is assembled from those readings.
-/
import proofs.«428575_j80934363726600_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.TileLoss

open Cert.KernelIdeal Cert.KernelIdeal.Gen Idealize.ShloMosaic Idealize.ShloMosaic.ValueIdx

/-- Lane `l = p·128 + q` of the tile's 131072 lanes: row `p` of 1024, column `q` of 128, in row-major order. -/
def lane (p : Fin 1024) (q : Fin 128) : Fin 131072 := ⟨p.val * 128 + q.val, by omega⟩

/-- The loss of one lane `l`: over the 4 meshes `n`, the Euclidean norm over the 3 coordinates `c` of
    `x0(n,c,l)·x2(0,0,l) − x1(n,c,l)`, summed. -/
def laneLoss (x0 x1 : Vec Ideal S4x3x131072 .f32) (x2 : Vec Ideal S1x1x131072 .f32) (l : Fin 131072) : EReal :=
  ∑ n : Fin 4, Ideal.sqrt (∑ c : Fin 3,
    (x0 (ix3 n c l) * x2 (ix3 0 0 l) - x1 (ix3 n c l)) * (x0 (ix3 n c l) * x2 (ix3 0 0 l) - x1 (ix3 n c l)))

/-! ## The non-pointwise operations read at an index -/

section Ops
variable {α : Type}

/-- Row 0 of the 8×128 block is the one row of the first piece. -/
theorem concat_row_zero (a : S1x128.Idx → α) (b : S7x128.Idx → α) (h : Shape.Concatenates [S1x128, S7x128] S8x128 0)
    (r : Fin 8) (q : Fin 128) (hr : r.val = 0) :
    concatenate S8x128 0 [⟨S1x128, a⟩, ⟨S7x128, b⟩] h (ix2 r q) = a (ix2 (0 : Fin 1) q) :=
  concatenate_pair_apply_left (0 : Fin S8x128.rank) a b h (ix2 r q) rfl (ix2 (0 : Fin 1) q) fun c =>
    match c with
    | ⟨0, _⟩ => hr.symm
    | ⟨1, _⟩ => rfl

/-- Rows 1..7 of the 8×128 block are the rows 0..6 of the second piece. -/
theorem concat_row_succ (a : S1x128.Idx → α) (b : S7x128.Idx → α) (h : Shape.Concatenates [S1x128, S7x128] S8x128 0)
    (r : Fin 8) (q : Fin 128) (hr : r.val ≠ 0) :
    concatenate S8x128 0 [⟨S1x128, a⟩, ⟨S7x128, b⟩] h (ix2 r q) = b (ix2 (⟨r.val - 1, by omega⟩ : Fin 7) q) :=
  concatenate_pair_apply_right (0 : Fin S8x128.rank) a b h (ix2 r q) rfl rfl (ix2 (⟨r.val - 1, by omega⟩ : Fin 7) q)
    (fun c hc => match c, hc with
      | ⟨0, _⟩, hc => absurd rfl hc
      | ⟨1, _⟩, _ => rfl)
    (by show (r.val - 1) + 1 = r.val; omega)

/-- The 131072 lanes cast row-major to 1024 rows of 128: entry `(p, q)` is lane `p·128 + q`. -/
theorem cast_rows_apply (v : S1x131072.Idx → α) (h : S1x131072.ShapeCasts S1024x128) (p : Fin 1024) (q : Fin 128) :
    shapeCast S1024x128 v h (ix2 p q) = v (ix2 (0 : Fin 1) (lane p q)) :=
  shapeCast_apply v h _ _ (by
    rw [Shape.rowMajor_val_two, Shape.rowMajor_val_two]
    show 0 * 131072 + (p.val * 128 + q.val) = p.val * 128 + q.val
    omega)

end Ops

/-- The sum down the 1024 rows, at column `q`. -/
theorem sum_rows_apply (v : FVec Ideal S1024x128 .f32) (h : S1024x128.Reduces [0] S128) (hφ : FKind.Formats .f32)
    (hacc : (0x00000000#32 : BitVec 32) = 0x00000000#32) (q : Fin 128) :
    multiReduction .add [0] S128 v 0x00000000#32 h hφ hacc (ix1 q) = ∑ p : Fin 1024, v (ix2 p q) := by
  refine (Ideal.multiReduction_add_single v 0x00000000#32 h hφ hacc (ix1 q)).trans ?_
  show ∑ p : Fin 1024, v (h.lift (ix1 q) p) = _
  refine Finset.sum_congr rfl fun p _ => congrArg v (funext fun c => Fin.ext ?_)
  match c with
  | ⟨0, _⟩ => rfl
  | ⟨1, _⟩ => rfl

/-- The sum over the 4 meshes, at lane `l`. -/
theorem sum_mesh_apply (v : FVec Ideal S4x131072 .f32) (h : S4x131072.Reduces [0] S131072) (hφ : FKind.Formats .f32)
    (hacc : (0x00000000#32 : BitVec 32) = 0x00000000#32) (l : Fin 131072) :
    multiReduction .add [0] S131072 v 0x00000000#32 h hφ hacc (ix1 l) = ∑ n : Fin 4, v (ix2 n l) := by
  refine (Ideal.multiReduction_add_single v 0x00000000#32 h hφ hacc (ix1 l)).trans ?_
  show ∑ n : Fin 4, v (h.lift (ix1 l) n) = _
  refine Finset.sum_congr rfl fun n _ => congrArg v (funext fun c => Fin.ext ?_)
  match c with
  | ⟨0, _⟩ => rfl
  | ⟨1, _⟩ => rfl

/-- The sum over the 3 coordinates, at mesh `n` and lane `l`. -/
theorem sum_coord_apply (v : FVec Ideal S4x3x131072 .f32) (h : S4x3x131072.Reduces [1] S4x131072) (hφ : FKind.Formats .f32)
    (hacc : (0x00000000#32 : BitVec 32) = 0x00000000#32) (n : Fin 4) (l : Fin 131072) :
    multiReduction .add [1] S4x131072 v 0x00000000#32 h hφ hacc (ix2 n l) = ∑ c : Fin 3, v (ix3 n c l) := by
  refine (Ideal.multiReduction_add_single v 0x00000000#32 h hφ hacc (ix2 n l)).trans ?_
  show ∑ c : Fin 3, v (h.lift (ix2 n l) c) = _
  refine Finset.sum_congr rfl fun c _ => congrArg v (funext fun d => Fin.ext ?_)
  match d with
  | ⟨0, _⟩ => rfl
  | ⟨1, _⟩ => rfl
  | ⟨2, _⟩ => rfl

/-- The per-lane factor broadcast over meshes and coordinates reads its lane. -/
theorem bcast_lane_apply {α : Type} (v : S1x1x131072.Idx → α) (h : S1x1x131072.Broadcasts S4x3x131072)
    (n : Fin 4) (c : Fin 3) (l : Fin 131072) :
    broadcastTo S4x3x131072 v h (ix3 n c l) = v (ix3 (0 : Fin 1) (0 : Fin 1) l) :=
  broadcastTo_apply v h _ _ fun a =>
    match a with
    | ⟨0, _⟩ => rfl
    | ⟨1, _⟩ => rfl
    | ⟨2, _⟩ => rfl

/-- The root of a vector at an index is the ideal square root of the element. -/
theorem sqrt_apply {s : Shape} {φ : FTy} (v : FVec Ideal s φ) (j : s.Idx) : sqrt v j = Ideal.sqrt (v j) := rfl

/-! ## The lane mask: global position below 1,000,000 -/

/-- The mask word of lane `l` on tile `i`: the signed compare of `l + i·131072` with 1,000,000 does not wrap,
    since `i·131072 + l < 2²⁰`, so it is the comparison of the natural numbers. -/
theorem mask_apply (i : grid0.Coords) (h : S1x131072.Iotas .tc 32 [1]) (l : Fin 131072) :
    cmpi .slt (addi (iota .tc S1x131072 32 [1] h) (broadcast S1x131072 (Scalar.muli (BitVec.ofNat 32 (i 0).val) 131072#32)))
        (broadcast S1x131072 1000000#32) (ix2 (0 : Fin 1) l)
      = if (i 0).val * 131072 + l.val < 1000000 then 1#1 else 0#1 := by
  have hi : (i 0).val < 8 := (i 0).isLt
  have hl : l.val < 131072 := l.isLt
  have e : IntOp.addi (iota .tc S1x131072 32 [1] h (ix2 (0 : Fin 1) l)) (Scalar.muli (BitVec.ofNat 32 (i 0).val) 131072#32)
      = BitVec.ofNat 32 ((i 0).val * 131072 + l.val) := by
    rw [iota_single_apply]
    show BitVec.ofNat 32 l.val + BitVec.ofNat 32 (i 0).val * 131072#32 = _
    apply BitVec.eq_of_toNat_eq
    simp only [BitVec.toNat_add, BitVec.toNat_mul, BitVec.toNat_ofNat]
    omega
  show IntOp.cmpi .slt (IntOp.addi (iota .tc S1x131072 32 [1] h (ix2 (0 : Fin 1) l))
      (Scalar.muli (BitVec.ofNat 32 (i 0).val) 131072#32)) 1000000#32 = _
  rw [e]
  have key := StableHlo.Predicate.slt_ofNat_iff ((i 0).val * 131072 + l.val) 1000000 (by omega) (by norm_num)
  by_cases hlt : (i 0).val * 131072 + l.val < 1000000
  · rw [if_pos hlt]; exact key.mpr hlt
  · rw [if_neg hlt]; exact eq_zero_of_ne_one fun h1 => hlt (key.mp h1)

/-! ## The stored block read at an index -/

/-- THE TILE'S STORED BLOCK AT `(r, q)`: row 0 holds, at column `q`, the sum over the 1024 rows `p` of the loss of lane
    `p·128 + q` where that lane's global position `i·131072 + p·128 + q` is below 1,000,000 (zero elsewhere); rows 1..7
    are zero. -/
theorem pay_apply (i : grid0.Coords) (x0 x1 : Vec Ideal S4x3x131072 .f32) (x2 : Vec Ideal S1x1x131072 .f32)
    (r : Fin 8) (q : Fin 128) :
    k0_pay1 (F := Ideal) i x0 x1 x2 (ix2 r q)
      = if r.val = 0 then ∑ p : Fin 1024,
          (if (i 0).val * 131072 + (lane p q).val < 1000000 then laneLoss x0 x1 x2 (lane p q) else 0) else 0 := by
  unfold k0_pay1
  by_cases hr : r.val = 0
  · rw [if_pos hr]
    -- row 0: the first piece, the sum down the rows, the row-major cast, the select
    refine (concat_row_zero _ _ _ r q hr).trans ?_
    refine (shapeCast_a_1a_apply _ _ 0 q).trans ?_
    refine (sum_rows_apply _ _ _ _ q).trans ?_
    refine Finset.sum_congr rfl fun p _ => ?_
    refine (cast_rows_apply _ _ p q).trans ?_
    refine (select_apply _ _ _ _).trans ?_
    rw [mask_apply i _ (lane p q)]
    by_cases hlt : (i 0).val * 131072 + (lane p q).val < 1000000
    · rw [if_pos hlt, if_pos hlt, select_one]
      -- an unmasked lane: the sum over the meshes of the root of the sum over the coordinates
      refine (shapeCast_a_1a_apply _ _ 0 (lane p q)).trans ?_
      refine (sum_mesh_apply _ _ _ _ (lane p q)).trans ?_
      unfold laneLoss
      refine Finset.sum_congr rfl fun n _ => ?_
      refine (sqrt_apply _ _).trans (congrArg Ideal.sqrt ?_)
      refine (sum_coord_apply _ _ _ _ n (lane p q)).trans ?_
      refine Finset.sum_congr rfl fun c _ => ?_
      rw [mulf_apply, subf_apply, mulf_apply, shapeCast_self, shapeCast_self, shapeCast_self, bcast_lane_apply]
    · rw [if_neg hlt, if_neg hlt, select_zero]
      exact Ideal.ofBits_zero_f32
  · rw [if_neg hr]
    -- rows 1..7: the zero word
    refine (concat_row_succ _ _ _ r q hr).trans ?_
    exact Ideal.ofBits_zero_f32

end Cert.KernelIdeal.TileLoss

end
-- ==== Proof.OutSpec.lean ====
/-
  The kernel region's output array as a function of the three arrays the region reads.

  The slots j < 1,048,576 = 8 · 1024 · 128 are read as 8 tiles of 1024 rows of 128 lanes. The loss of a slot is, summed
  over the 4 meshes, the Euclidean norm over the 3 coordinates of (neighbour sum · weight − position); slots from
  1,000,000 on are padding and count zero. Row 8t of the 64 × 128 output holds, in lane q, the sum over the 1024 rows p
  of tile t of the slots t · 131072 + p · 128 + q; the other rows are zero.
-/
import proofs.«428575_j80934363726600_2_alg».proof.KernelIdeal
import Idealize.ShloMosaic.Lib.ValueIdx
import Idealize.ShloMosaic.PureOps.Ideal

noncomputable section

open scoped BigOperators

namespace Cert.KernelIdeal.OutArray

open Cert.KernelIdeal Idealize.ShloMosaic Idealize.ShloMosaic.ValueIdx

/-- The loss of slot `j`: over the 4 meshes `n`, the norm over the 3 coordinates `c` of
    `A0(n,c,j) · A2(0,0,j) − A1(n,c,j)`, summed. -/
def slotLoss (A0 A1 : S4x3x1048576.Idx → EReal) (A2 : S1x1x1048576.Idx → EReal) (j : Fin 1048576) : EReal :=
  ∑ n : Fin 4, Ideal.sqrt (∑ c : Fin 3,
    (A0 (ix3 n c j) * A2 (ix3 0 0 j) - A1 (ix3 n c j)) * (A0 (ix3 n c j) * A2 (ix3 0 0 j) - A1 (ix3 n c j)))

/-- The loss of a slot that is a vertex (below 1,000,000), zero for a padding slot. -/
def slotTerm (A0 A1 : S4x3x1048576.Idx → EReal) (A2 : S1x1x1048576.Idx → EReal) (j : Fin 1048576) : EReal :=
  if j.val < 1000000 then slotLoss A0 A1 A2 j else 0

/-- The output array: row `R` is zero unless `R` is a multiple of 8, and row `8t` holds in lane `q` the sum over the
    rows `p` of tile `t` of the slots `t · 131072 + p · 128 + q`. -/
def Gout (A0 A1 : S4x3x1048576.Idx → EReal) (A2 : S1x1x1048576.Idx → EReal) : S64x128.Idx → EReal := fun i =>
  if (i 0).val % 8 = 0 then
    ∑ p : Fin 1024, slotTerm A0 A1 A2 ⟨(i 0).val / 8 * 131072 + (p.val * 128 + (i 1).val), by
      have h0 : (i 0).val < 64 := (i 0).isLt
      have h1 : (i 1).val < 128 := (i 1).isLt
      have hp : p.val < 1024 := p.isLt
      omega⟩
  else 0

end Cert.KernelIdeal.OutArray

end
-- ==== Proof.OutArray.lean ====
/-
  The kernel region's output array after the run, as one function of the three arrays the region reads.

  The grid has 8 points `t`. The three input windows' blocks at `t` are lanes `[t · 131072, (t + 1) · 131072)` of the
  last axis of their arrays (block index `(0, 0, t)`); the output window's block at `t` is rows `[8t, 8t + 8)` of the
  64 × 128 output (block index `(t, 0)`). An element of a block sits in its array, on every axis, at the block index
  times the block's size plus its own coordinate. The body stores one whole 8 × 128 block: zero off its row 0, and in
  row 0, lane `q`, the sum over the 1024 rows `p` of the masked loss of lane `p · 128 + q` of the tile, which is slot
  `t · 131072 + p · 128 + q` of the arrays. So output element `(8t + r, q)` is `Gout` there, and since the 8 blocks
  tile the 64 rows the array after the run is `Gout` everywhere.
-/
import proofs.«428575_j80934363726600_2_alg».proof.Proof.KernelIdealFrame
import proofs.«428575_j80934363726600_2_alg».proof.Proof.TileLossAt
import proofs.«428575_j80934363726600_2_alg».proof.Proof.OutSpec
import Idealize.ShloMosaic.Lib.Pipeline.Value
import Idealize.ShloMosaic.Lib.ValueIdx

noncomputable section

open scoped BigOperators

namespace Cert.KernelIdeal.OutArray

open Cert.KernelIdeal Cert.KernelIdeal.Gen Cert.KernelIdeal.GenP Cert.KernelIdeal.TileLoss Idealize.ShloMosaic
  Idealize.ShloMosaic.ValueIdx Idealize.ShloMosaic.Pipeline

variable (m : (ℓ : Loc nD τ sig) → Buf (Elt Ideal) ℓ)

/-! ## The index maps over the grid -/

/-- The four index maps at point `t`, decided over the 8 points: each input window's block index is `(0, 0, t)`, the
    output window's is `(t, 0)`, the point's one grid coordinate is `t`, and `t < 8`. -/
theorem tile_index_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val
    ∧ win0_3.index t (0 : Fin 2) = t.val ∧ win0_3.index t (1 : Fin 2) = 0
    ∧ (grid0.coords t (0 : Fin 1)).val = t.val ∧ t.val < 8 :=
  (by decide +kernel : ∀ t : Fin grid0.N, _)

/-- The slot of lane `l` of tile `t`: `t · 131072 + l`. -/
def tileSlot (t : Fin cfg0.N) (l : Fin 131072) : Fin 1048576 :=
  ⟨t.val * 131072 + l.val, by have := (tile_index_facts t).2.2.2.2.2.2.2.2.2.2.2.2; have := l.isLt; omega⟩

/-! ## The three arrays the input windows stage -/

/-- Input window 0 stages the first operand of the region. -/
theorem arrRef0 : Pipeline.arrRef spec0 0 = main_v33 := rfl
/-- Input window 1 stages the second operand of the region. -/
theorem arrRef1 : Pipeline.arrRef spec0 1 = main_v35 := rfl
/-- Input window 2 stages the third operand of the region. -/
theorem arrRef2 : Pipeline.arrRef spec0 2 = main_v36 := rfl

/-- The region-entry contents at equal references are equal (as contents of possibly differently spelt types). -/
theorem V_heq (c : Dev nD) {b b' : Ref sig .tc} (h : b = b') : HEq (V m c b) (V m c b') := by subst h; rfl

/-- Window 0's array as the region finds it is the first operand's contents. -/
theorem V0_eq (c : Dev nD) : (V m c (Pipeline.arrRef spec0 0) : S4x3x1048576.Idx → EReal) = V m c main_v33 :=
  eq_of_heq (V_heq m c arrRef0)
/-- Window 1's array as the region finds it is the second operand's contents. -/
theorem V1_eq (c : Dev nD) : (V m c (Pipeline.arrRef spec0 1) : S4x3x1048576.Idx → EReal) = V m c main_v35 :=
  eq_of_heq (V_heq m c arrRef1)
/-- Window 2's array as the region finds it is the third operand's contents. -/
theorem V2_eq (c : Dev nD) : (V m c (Pipeline.arrRef spec0 2) : S1x1x1048576.Idx → EReal) = V m c main_v36 :=
  eq_of_heq (V_heq m c arrRef2)

/-! ## The body's one store -/

/-- The rank-2 zero offsets, as a constant function. -/
theorem zero_off2 : (![0, 0] : Fin 2 → Nat) = fun _ => 0 := funext fun a => by fin_cases a <;> rfl
/-- The rank-3 zero offsets, as a constant function. -/
theorem zero_off3 : (![0, 0, 0] : Fin 3 → Nat) = fun _ => 0 := funext fun a => by fin_cases a <;> rfl

/-- What the body leaves in the output's buffer is its payload of the three whole input blocks: the one store covers
    the buffer, and each load reads a whole block. -/
theorem out0_3_eq (i : grid0.Coords) (x0 x1 : Vec Ideal S4x3x131072 .f32) (x2 : Vec Ideal S1x1x131072 .f32) :
    out0_3 (F := Ideal) i x0 x1 x2 = k0_pay1 (F := Ideal) i x0 x1 x2 := by
  unfold out0_3
  rw [View.canon_unit_zero zero_off2]
  simp only [View.ld_unit_zero (S := S4x3x131072) zero_off3, View.ld_unit_zero (S := S1x1x131072) zero_off3]

/-! ## The input blocks read at an index -/

/-- Window 0's block at `t`, read through any contents `X` of its array: element `(n, k, l)` is `X (n, k, t · 131072 + l)`. -/
theorem read_blk0 (c : Dev nD) (X : Buf (Elt Ideal) ((c.tc : Thread nD τ).loc (Pipeline.arrRef spec0 0))) (t : Fin cfg0.N)
    (n : Fin 4) (k : Fin 3) (l : Fin 131072) :
    (((cfg0.win 0).blk t).view.read (Elt Ideal) X : Vec Ideal S4x3x131072 .f32) (ix3 n k l)
      = (X : S4x3x1048576.Idx → EReal) (ix3 n k (tileSlot t l)) := by
  obtain ⟨e0, e1, e2, -⟩ := tile_index_facts t
  rw [View.read_apply]
  show X _ = X _
  refine congrArg X (funext fun a => Fin.ext ?_)
  -- per axis: block index × block size + the coordinate inside the block
  match a with
  | ⟨0, _⟩ => show win0_0.index t (0 : Fin 3) * 4 + 1 * n.val = n.val; rw [e0]; omega
  | ⟨1, _⟩ => show win0_0.index t (1 : Fin 3) * 3 + 1 * k.val = k.val; rw [e1]; omega
  | ⟨2, _⟩ => show win0_0.index t (2 : Fin 3) * 131072 + 1 * l.val = t.val * 131072 + l.val; rw [e2]; omega

/-- Window 1's block at `t`, read through any contents `X` of its array: element `(n, k, l)` is `X (n, k, t · 131072 + l)`. -/
theorem read_blk1 (c : Dev nD) (X : Buf (Elt Ideal) ((c.tc : Thread nD τ).loc (Pipeline.arrRef spec0 1))) (t : Fin cfg0.N)
    (n : Fin 4) (k : Fin 3) (l : Fin 131072) :
    (((cfg0.win 1).blk t).view.read (Elt Ideal) X : Vec Ideal S4x3x131072 .f32) (ix3 n k l)
      = (X : S4x3x1048576.Idx → EReal) (ix3 n k (tileSlot t l)) := by
  obtain ⟨-, -, -, e0, e1, e2, -⟩ := tile_index_facts t
  rw [View.read_apply]
  show X _ = X _
  refine congrArg X (funext fun a => Fin.ext ?_)
  match a with
  | ⟨0, _⟩ => show win0_1.index t (0 : Fin 3) * 4 + 1 * n.val = n.val; rw [e0]; omega
  | ⟨1, _⟩ => show win0_1.index t (1 : Fin 3) * 3 + 1 * k.val = k.val; rw [e1]; omega
  | ⟨2, _⟩ => show win0_1.index t (2 : Fin 3) * 131072 + 1 * l.val = t.val * 131072 + l.val; rw [e2]; omega

/-- Window 2's block at `t`, read through any contents `X` of its array: element `(0, 0, l)` is `X (0, 0, t · 131072 + l)`. -/
theorem read_blk2 (c : Dev nD) (X : Buf (Elt Ideal) ((c.tc : Thread nD τ).loc (Pipeline.arrRef spec0 2))) (t : Fin cfg0.N)
    (l : Fin 131072) :
    (((cfg0.win 2).blk t).view.read (Elt Ideal) X : Vec Ideal S1x1x131072 .f32) (ix3 (0 : Fin 1) (0 : Fin 1) l)
      = (X : S1x1x1048576.Idx → EReal) (ix3 (0 : Fin 1) (0 : Fin 1) (tileSlot t l)) := by
  obtain ⟨-, -, -, -, -, -, e0, e1, e2, -⟩ := tile_index_facts t
  rw [View.read_apply]
  show X _ = X _
  refine congrArg X (funext fun a => Fin.ext ?_)
  match a with
  | ⟨0, _⟩ => show win0_2.index t (0 : Fin 3) * 1 + 1 * 0 = 0; rw [e0]
  | ⟨1, _⟩ => show win0_2.index t (1 : Fin 3) * 1 + 1 * 0 = 0; rw [e1]
  | ⟨2, _⟩ => show win0_2.index t (2 : Fin 3) * 131072 + 1 * l.val = t.val * 131072 + l.val; rw [e2]; omega

/-! ## One tile's stored block as the output function -/

/-- ONE LANE OF A TILE IS ONE SLOT: when three blocks `x0 x1 x2` are the arrays `A0 A1 A2` read at the slots
    `slot l = tv · 131072 + l`, the masked loss of lane `l` of tile `tv` is the masked loss of its slot. -/
theorem lane_term (i : grid0.Coords) (tv : Nat) (hi : (i 0).val = tv)
    (x0 x1 : Vec Ideal S4x3x131072 .f32) (x2 : Vec Ideal S1x1x131072 .f32)
    (A0 A1 : S4x3x1048576.Idx → EReal) (A2 : S1x1x1048576.Idx → EReal)
    (slot : Fin 131072 → Fin 1048576) (hslot : ∀ l, (slot l).val = tv * 131072 + l.val)
    (h0 : ∀ n k l, x0 (ix3 n k l) = A0 (ix3 n k (slot l)))
    (h1 : ∀ n k l, x1 (ix3 n k l) = A1 (ix3 n k (slot l)))
    (h2 : ∀ l, x2 (ix3 (0 : Fin 1) (0 : Fin 1) l) = A2 (ix3 (0 : Fin 1) (0 : Fin 1) (slot l)))
    (l : Fin 131072) (s : Fin 1048576) (hs : s.val = tv * 131072 + l.val) :
    (if (i 0).val * 131072 + l.val < 1000000 then laneLoss x0 x1 x2 l else 0) = slotTerm A0 A1 A2 s := by
  have hsl : s = slot l := Fin.ext (hs.trans (hslot l).symm)
  subst hsl
  unfold slotTerm
  rw [hslot l, hi]
  by_cases hlt : tv * 131072 + l.val < 1000000
  · rw [if_pos hlt, if_pos hlt]
    unfold laneLoss slotLoss
    refine Finset.sum_congr rfl fun n _ => congrArg Ideal.sqrt (Finset.sum_congr rfl fun k _ => ?_)
    rw [h0 n k l, h1 n k l, h2 l]
  · rw [if_neg hlt, if_neg hlt]

/-- THE STORED BLOCK OF TILE `tv` AT `(r, q)` is the output function at row `8 · tv + r`, lane `q`: both are zero off
    `r = 0`, and at `r = 0` both sum, over the 1024 rows `p`, the masked loss of slot `tv · 131072 + p · 128 + q`. -/
theorem pay_tile (i : grid0.Coords) (tv : Nat) (hi : (i 0).val = tv)
    (x0 x1 : Vec Ideal S4x3x131072 .f32) (x2 : Vec Ideal S1x1x131072 .f32)
    (A0 A1 : S4x3x1048576.Idx → EReal) (A2 : S1x1x1048576.Idx → EReal)
    (slot : Fin 131072 → Fin 1048576) (hslot : ∀ l, (slot l).val = tv * 131072 + l.val)
    (h0 : ∀ n k l, x0 (ix3 n k l) = A0 (ix3 n k (slot l)))
    (h1 : ∀ n k l, x1 (ix3 n k l) = A1 (ix3 n k (slot l)))
    (h2 : ∀ l, x2 (ix3 (0 : Fin 1) (0 : Fin 1) l) = A2 (ix3 (0 : Fin 1) (0 : Fin 1) (slot l)))
    (r : Fin 8) (q : Fin 128) (j : S64x128.Idx) (hj0 : (j 0).val = tv * 8 + r.val) (hj1 : (j 1).val = q.val) :
    k0_pay1 (F := Ideal) i x0 x1 x2 (ix2 r q) = Gout A0 A1 A2 j := by
  rw [pay_apply]
  unfold Gout
  have hr : r.val < 8 := r.isLt
  by_cases hr0 : r.val = 0
  · -- row 8 · tv: (8 · tv) % 8 = 0 and (8 · tv) / 8 = tv
    rw [if_pos hr0, if_pos (show (j 0).val % 8 = 0 by omega)]
    refine Finset.sum_congr rfl fun p _ => ?_
    refine lane_term i tv hi x0 x1 x2 A0 A1 A2 slot hslot h0 h1 h2 (lane p q) _ ?_
    show (j 0).val / 8 * 131072 + (p.val * 128 + (j 1).val) = tv * 131072 + (p.val * 128 + q.val)
    omega
  · -- rows 8 · tv + 1 … 8 · tv + 7: not a multiple of 8
    rw [if_neg hr0, if_neg (show ¬ (j 0).val % 8 = 0 by omega)]

/-- What tile `t` stores, cut to its block, is block `t` of the output function of ANY three contents of the input
    windows' arrays read through their blocks at `t`. -/
theorem tile_out (c : Dev nD)
    (X0 : Buf (Elt Ideal) ((c.tc : Thread nD τ).loc (Pipeline.arrRef spec0 0)))
    (X1 : Buf (Elt Ideal) ((c.tc : Thread nD τ).loc (Pipeline.arrRef spec0 1)))
    (X2 : Buf (Elt Ideal) ((c.tc : Thread nD τ).loc (Pipeline.arrRef spec0 2))) (t : Fin cfg0.N) :
    (cfg0.win 3).cut (grid0.coords t) (k0_pay1 (F := Ideal) (grid0.coords t)
        (((cfg0.win 0).blk t).view.read (Elt Ideal) X0) (((cfg0.win 1).blk t).view.read (Elt Ideal) X1)
        (((cfg0.win 2).blk t).view.read (Elt Ideal) X2))
      = ((cfg0.win 3).blk t).view.read (Elt Ideal) (Gout X0 X1 X2) := by
  obtain ⟨-, -, -, -, -, -, -, -, -, e30, e31, ec, -⟩ := tile_index_facts t
  funext y
  rw [View.read_apply]
  have hy0 : (y 0).val < 8 := (y 0).isLt
  have hy1 : (y 1).val < 128 := (y 1).isLt
  -- the block index `y` as the pair of its two coordinates
  have hx : ((cfg0.win 3).xinj (grid0.coords t) y : S8x128.Idx)
      = ix2 (⟨(y 0).val, hy0⟩ : Fin 8) (⟨(y 1).val, hy1⟩ : Fin 128) := by
    funext a
    match a with
    | ⟨0, _⟩ => rfl
    | ⟨1, _⟩ => rfl
  refine (congrArg (k0_pay1 (F := Ideal) (grid0.coords t)
        (((cfg0.win 0).blk t).view.read (Elt Ideal) X0) (((cfg0.win 1).blk t).view.read (Elt Ideal) X1)
        (((cfg0.win 2).blk t).view.read (Elt Ideal) X2)) hx).trans ?_
  show _ = Gout X0 X1 X2 (((cfg0.win 3).blk t).view.emb y)
  refine pay_tile (grid0.coords t) t.val ec
    (((cfg0.win 0).blk t).view.read (Elt Ideal) X0) (((cfg0.win 1).blk t).view.read (Elt Ideal) X1)
    (((cfg0.win 2).blk t).view.read (Elt Ideal) X2) X0 X1 X2 (tileSlot t) (fun l => rfl)
    (read_blk0 c X0 t) (read_blk1 c X1 t) (read_blk2 c X2 t) ⟨(y 0).val, hy0⟩ ⟨(y 1).val, hy1⟩
    (((cfg0.win 3).blk t).view.emb y) ?_ ?_
  -- the output block's element `y` sits at row `8t + y₀`, lane `y₁`
  · show win0_3.index t (0 : Fin 2) * 8 + 1 * (y 0).val = t.val * 8 + (y 0).val
    rw [e30]; omega
  · show win0_3.index t (1 : Fin 2) * 128 + 1 * (y 1).val = (y 1).val
    rw [e31]; omega

/-- The output function respects equality of its three arrays. -/
theorem Gout_congr {A0 A0' A1 A1' : S4x3x1048576.Idx → EReal} {A2 A2' : S1x1x1048576.Idx → EReal}
    (h0 : A0 = A0') (h1 : A1 = A1') (h2 : A2 = A2') : Gout A0 A1 A2 = Gout A0' A1' A2' := by
  subst h0 h1 h2; rfl

/-! ## From the blocks to the array -/

/-- WHAT POINT `t` WRITES BACK is block `t` of the output function of the three arrays the region reads. -/
theorem flushed3_eq (c : Dev nD) (t : Fin cfg0.N) :
    (dats m 0 c).flushed 3 t
      = ((cfg0.win 3).blk t).view.read (Elt Ideal) (Gout (V m c main_v33) (V m c main_v35) (V m c main_v36)) := by
  show (cfg0.win 3).cut (grid0.coords t) ((dats m 0 c).after 3 t) = _
  rw [after0_3]
  refine (congrArg ((cfg0.win 3).cut (grid0.coords t))
    (out0_3_eq (grid0.coords t) (iblk m c 0 t) (iblk m c 1 t) (iblk m c 2 t))).trans ?_
  unfold iblk
  refine (tile_out c (V m c (Pipeline.arrRef spec0 0)) (V m c (Pipeline.arrRef spec0 1))
    (V m c (Pipeline.arrRef spec0 2)) t).trans ?_
  exact congrArg (((cfg0.win 3).blk t).view.read (Elt Ideal)) (Gout_congr (V0_eq m c) (V1_eq m c) (V2_eq m c))

/-- An index of the output array is in point `t`'s block iff each coordinate is in the block's range on its axis. -/
theorem mem_blk3 (t : Fin cfg0.N) (i : S64x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v37).slice (win0_3.rect t)).set ↔ _
  rw [View.set_slice_whole, Rect.mem_set_unit]
  exact Iff.rfl

/-- Every row of the output is in some tile's block: row `R` in that of tile `R / 8`. -/
theorem cover3 (i : S64x128.Idx) :
    ∃ t : Fin cfg0.N, (cfg0.win 3).flush t = true ∧ i ∈ ((cfg0.win 3).blk t).view.set := by
  have hi0 : (i 0).val < 64 := (i 0).isLt
  have hi1 : (i 1).val < 128 := (i 1).isLt
  obtain ⟨t, htv⟩ : ∃ t : Fin cfg0.N, t.val = (i 0).val / 8 :=
    ⟨⟨(i 0).val / 8, by rw [show cfg0.N = 8 from N_0]; omega⟩, rfl⟩
  obtain ⟨-, -, -, -, -, -, -, -, -, e30, e31, -, -⟩ := tile_index_facts t
  refine ⟨t, flush0_3 t, ?_⟩
  rw [mem_blk3]
  intro a
  match a with
  | ⟨0, _⟩ =>
    show win0_3.index t (0 : Fin 2) * 8 ≤ (i 0).val ∧ (i 0).val < win0_3.index t (0 : Fin 2) * 8 + 8
    rw [e30]; omega
  | ⟨1, _⟩ =>
    show win0_3.index t (1 : Fin 2) * 128 ≤ (i 1).val ∧ (i 1).val < win0_3.index t (1 : Fin 2) * 128 + 128
    rw [e31]; omega

/-- THE OUTPUT ARRAY after the run is the output function of the three arrays the region reads: the 8 tiles' blocks
    tile its 64 rows. -/
theorem final3 (c : Dev nD) :
    (dats m 0 c).arrAt 3 cfg0.N = Gout (V m c main_v33) (V m c main_v35) (V m c main_v36) :=
  (dats m 0 c).arrAt_eq_of_cover 3 (Gout (V m c main_v33) (V m c main_v35) (V m c main_v36))
    (fun t _ => flushed3_eq m c t) cover3

end Cert.KernelIdeal.OutArray

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.OutTotal.lean ====
/-
  The total of the kernel region's output array.

  The 64 × 128 array is zero off the rows 8t, and row 8t holds in lane q the sum over the 1024 rows p of tile t of the
  slot terms at slot t · 131072 + p · 128 + q. Tiles, rows and lanes enumerate each of the 1,048,576 = 8 · (1024 · 128)
  slots once, so the array's total is the sum of the slot terms over all slots; a slot term is zero from slot 1,000,000
  on, so that is the sum of the slot losses over the first 1,000,000 slots. Only commutativity and associativity of `+`
  on the extended reals are used.
-/
import proofs.«428575_j80934363726600_2_alg».proof.Proof.OutSpec
import proofs.«428575_j80934363726600_2_alg».proof.Proof.LibTileSum
import Idealize.ShloMosaic.Lib.ValueIdx

open scoped BigOperators

namespace Cert.KernelIdeal.OutArray

open Cert.KernelIdeal Idealize.ShloMosaic Idealize.ShloMosaic.ValueIdx

/-- Row `8t` of the output, at lane `q`: the row index is a multiple of 8 with quotient `t`, so the entry is the sum
    over the rows `p` of tile `t` of the slot terms at `t · 131072 + p · 128 + q`. -/
theorem Gout_group_first (A0 A1 : S4x3x1048576.Idx → EReal) (A2 : S1x1x1048576.Idx → EReal) (t : Fin 8) (q : Fin 128) :
    Gout A0 A1 A2 (ix2 (⟨t.val * 8, by omega⟩ : Fin 64) q)
      = ∑ p : Fin 1024, slotTerm A0 A1 A2 ⟨t.val * 131072 + (p.val * 128 + q.val), by omega⟩ := by
  unfold Gout
  refine (if_pos (show t.val * 8 % 8 = 0 from Nat.mul_mod_left _ _)).trans ?_
  refine Finset.sum_congr rfl fun p _ => congrArg (slotTerm A0 A1 A2) (Fin.ext ?_)
  show t.val * 8 / 8 * 131072 + (p.val * 128 + q.val) = t.val * 131072 + (p.val * 128 + q.val)
  omega

/-- Row `8t + s` with `s ≠ 0` is not a multiple of 8: the entry is zero. -/
theorem Gout_group_rest (A0 A1 : S4x3x1048576.Idx → EReal) (A2 : S1x1x1048576.Idx → EReal) (t : Fin 8) (s : Fin 8)
    (q : Fin 128) (hs : s.val ≠ 0) :
    Gout A0 A1 A2 (ix2 (⟨t.val * 8 + s.val, by omega⟩ : Fin 64) q) = 0 := by
  unfold Gout
  exact if_neg (show ¬ (t.val * 8 + s.val) % 8 = 0 by omega)

/-- A slot term in the dependent form: the slot loss below 1,000,000, zero from there on. -/
theorem slotTerm_eq_dite (A0 A1 : S4x3x1048576.Idx → EReal) (A2 : S1x1x1048576.Idx → EReal) (j : Fin 1048576) :
    slotTerm A0 A1 A2 j
      = if hj : j.val < 1000000 then
          (fun v : Fin 1000000 => slotLoss A0 A1 A2 ⟨v.val, by have := v.isLt; omega⟩) ⟨j.val, hj⟩
        else 0 := by
  unfold slotTerm
  by_cases hj : j.val < 1000000
  · rw [if_pos hj, dif_pos hj]
  · rw [if_neg hj, dif_neg hj]

/-- THE TOTAL OF THE OUTPUT ARRAY is the sum of the slot losses over the first 1,000,000 slots: only the rows `8t`
    contribute; tiles, lanes and rows enumerate every slot once; the padding slots contribute zero. -/
theorem total_Gout (A0 A1 : S4x3x1048576.Idx → EReal) (A2 : S1x1x1048576.Idx → EReal) :
    ∑ i : S64x128.Idx, Gout A0 A1 A2 i
      = ∑ v : Fin 1000000, slotLoss A0 A1 A2 ⟨v.val, by have := v.isLt; omega⟩ := by
  -- only the first row of each group of 8 rows contributes
  refine (sum_first_rows 8 8 128 (by decide) (Gout A0 A1 A2)
    (fun t q => ∑ p : Fin 1024, slotTerm A0 A1 A2 ⟨t.val * 131072 + (p.val * 128 + q.val), by omega⟩)
    (fun t q => Gout_group_first A0 A1 A2 t q) (fun t s q hs => Gout_group_rest A0 A1 A2 t s q hs)).trans ?_
  -- tiles, lanes and rows enumerate every slot once
  refine (sum_tiles 8 1024 128 (fun j => slotTerm A0 A1 A2 j)).trans ?_
  -- the padding slots contribute zero
  refine (Finset.sum_congr rfl fun j _ => slotTerm_eq_dite A0 A1 A2 j).trans ?_
  exact sum_below (by decide : 1000000 ≤ 1048576)
    (fun v : Fin 1000000 => slotLoss A0 A1 A2 ⟨v.val, by have := v.isLt; omega⟩)

end Cert.KernelIdeal.OutArray
-- ==== Proof.KernelTotal.lean ====
/-
  The scaled total of an output array, read on the extended reals: the sum of all its entries (the zero word the sum
  starts from is the real 0) divided, as the host divides, by the word for 4,000,000.
-/
import proofs.«428575_j80934363726600_2_alg».proof.Proof.KernelResult
import Idealize.ShloMosaic.Lib.ValueIdx
import Idealize.ShloMosaic.PureOps.Ideal.Laws

noncomputable section

open scoped BigOperators

namespace Cert.KernelIdeal.Result

open Cert.KernelIdeal Cert.KernelIdeal.Gen Idealize.ShloMosaic Idealize.ShloMosaic.ValueIdx

/-- At the ideal instance the scaled total of `A` is `(Σ_i A i) / 4,000,000`, the quotient the host's. -/
theorem scaledTotal_apply (A : (⟨S64x128, .f32⟩ : BufTy).Contents (Elt Ideal)) (i : S_.Idx) :
    scaledTotal (F := Ideal) A i = Ideal.div (∑ j : S64x128.Idx, A j) (Ideal.ofBits .f32 0x4A742400#32) := by
  unfold scaledTotal
  show FloatOps.hostDivf (Host.reduceAdd A (constant (F := Ideal) S_ .f32 0x00000000#32) reducesTo_S64x128_S_d0_1 h_S_ i)
      (constant (F := Ideal) S_ .f32 0x4A742400#32 i) = _
  simp only [Host.reduceAdd, Ideal.hostReduceAdd_def, Ideal.hostDivf_def]
  rw [Ideal.hostReduceAdd_total reducesTo_S64x128_S_d0_1 (fun b => b.elim0)]
  simp only [constant_apply, Ideal.ofBits_zero_f32, zero_add]

end Cert.KernelIdeal.Result

end
-- ==== Proof.RefLoss.lean ====
/-
  The reference program's result and its pieces, read at an index on the extended reals.

  For 4 meshes `n`, 1,000,000 vertices `v` and 3 coordinates `k`, the reference forms the uniform graph Laplacian
  `lap(n, v, k) = nbr(v, n, k) · w(v) − x(n, v, k)`, its norm `√(Σ_k lap²)` at every `(n, v)`, the total over all
  `(n, v)`, and divides by 4,000,000. Here `nbr(v, n, k)` is the sum, over the directed edges `r` that start at `v`, of
  the position of the edge's end vertex; `w(v)` is the guarded reciprocal of the degree; the degree of `v` is the
  number of directed edges that start at `v` (a sum of ones).
-/
import proofs.«428575_j80934363726600_2_alg».proof.Proof.ReferenceIdealRead
import proofs.«428575_j80934363726600_2_alg».proof.Proof.LossSpec
import proofs.«428575_j80934363726600_2_alg».proof.Proof.LibVecScatterAdd
import proofs.«428575_j80934363726600_2_alg».proof.Proof.LibSlabScatterAdd
import proofs.«428575_j80934363726600_2_alg».proof.Proof.LibSlabGather
import Idealize.ShloMosaic.Lib.ValueIdx
import Idealize.ShloMosaic.PureOps.Ideal.Laws

noncomputable section

namespace Cert.ReferenceIdeal.RefLoss

open Cert.ReferenceIdeal Cert.ReferenceIdeal.Gen Cert.ReferenceIdeal.ReadP Idealize.ShloMosaic Idealize.ShloMosaic.ValueIdx

/-- The coordinate sum reads element `k` of row `(n, v)` at `(n, v, k)`. -/
theorem idx39_ix2 (n : Fin 4) (v : Fin 1000000) (k : Fin 3) : idx_main_v39 (ix2 n v) k = ix3 n v k :=
  funext fun a => Fin.ext (by match a with | ⟨0, _⟩ => rfl | ⟨1, _⟩ => rfl | ⟨2, _⟩ => rfl)

/-- The transpose `[1, 0, 2]` reads element `(n, v, k)` of its result at `(v, n, k)` of its operand. -/
theorem idx25_ix3 (n : Fin 4) (v : Fin 1000000) (k : Fin 3) : idx_main_v25 (ix3 n v k) = ix3 v n k :=
  funext fun a => Fin.ext (by match a with | ⟨0, _⟩ => rfl | ⟨1, _⟩ => rfl | ⟨2, _⟩ => rfl)

/-- The two broadcasts of the weight vector read element `(n, v, k)` at `v`: the weight depends on the vertex only. -/
theorem idx34_35_ix3 (n : Fin 4) (v : Fin 1000000) (k : Fin 3) : idx_main_v34 (idx_main_v35 (ix3 n v k)) = ix1 v :=
  funext fun a => Fin.ext (by match a with | ⟨0, _⟩ => rfl)

/-- THE REFERENCE'S RESULT: the total over meshes `n` and vertices `v` of the norm `√(Σ_k lap(n, v, k)²)` of the
    Laplacian `lap(n, v, k) = nbr(v, n, k) · w(v) − x(n, v, k)`, divided by the word for 4,000,000. Both sums start
    from the word for zero, which is `0`. -/
theorem ref_value (x0 : (⟨S4x1000000x3, .f32⟩ : BufTy).Contents (Elt Ideal))
    (x2 : (⟨S2996001x2, .i32⟩ : BufTy).Contents (Elt Ideal)) :
    val_main_v42 (F := Ideal) x0 x2 ix0
      = Ideal.div (∑ n : Fin 4, ∑ v : Fin 1000000, Ideal.sqrt (∑ k : Fin 3,
          (val_main_v24 (F := Ideal) x0 x2 (ix3 v n k) * val_main_v33 (F := Ideal) x2 (ix1 v) - x0 (ix3 n v k))
          * (val_main_v24 (F := Ideal) x0 x2 (ix3 v n k) * val_main_v33 (F := Ideal) x2 (ix1 v) - x0 (ix3 n v k))))
        (Ideal.ofBits .f32 0x4A742400#32) := by
  rw [val_main_v42_apply, val_main_cst_10_apply, val_main_v41_apply, val_main_cst_9_apply, Ideal.hostDivf_def,
    Ideal.ofBits_def, Ideal.ofBits_def, Ideal.ofBits_zero_f32, zero_add, sum_idx2]
  refine congrArg (fun s => Ideal.div s (Ideal.ofBits .f32 0x4A742400#32)) ?_
  refine Finset.sum_congr rfl fun n _ => Finset.sum_congr rfl fun v _ => ?_
  rw [val_main_v40_apply, val_main_v39_apply, val_main_cst_8_apply, Ideal.hostUnary_sqrt_def, Ideal.ofBits_def,
    Ideal.ofBits_zero_f32, zero_add]
  refine congrArg Ideal.sqrt (Finset.sum_congr rfl fun k _ => ?_)
  rw [idx39_ix2, val_main_v38_apply, val_main_v37_apply, val_main_v36_apply, val_main_v25_apply,
    val_main_v35_apply, val_main_v34_apply, idx25_ix3, idx34_35_ix3]
  rfl

/-- The vertex weight is the guarded reciprocal of the degree: the quotient `1 / (d if d > 0 else 1)` kept where
    `d > 0`, and `0` elsewhere. -/
theorem ref_weight (x2 : (⟨S2996001x2, .i32⟩ : BufTy).Contents (Elt Ideal)) (v : Fin 1000000) :
    val_main_v33 (F := Ideal) x2 (ix1 v) = Cert.LossSpec.wOf (val_main_v13 (F := Ideal) x2 (ix1 v)) := by
  rw [val_main_v33_apply, val_main_v27_apply, val_main_v32_apply, val_main_v31_apply, val_main_cst_6_apply,
    val_main_v30_apply, val_main_v29_apply, val_main_v28_apply, val_main_cst_4_apply, val_main_call0_v1_apply,
    val_main_call0_v0_apply, val_main_cst_5_apply, val_main_v26_apply, val_main_cst_3_apply,
    val_main_call1_v1_apply, val_main_call1_v0_apply, val_main_cst_7_apply]
  rfl

/-- The degree scatter's dimension numbers are the general vector scatter's. -/
theorem scatter_deg_eq :
    scatter_S1000000_S5992002x1_S5992002_n_0_0_1
      = vecScatterDims 1000000 5992002 Cert.ReferenceIdeal.Gen.scatter_S1000000_S5992002x1_S5992002_n_0_0_1_wf := rfl

/-- The degree of vertex `v`: one for every directed edge `r` whose start vertex, read signed, is `v` (ones
    scatter-added by start vertex onto zeros). -/
theorem ref_deg (x2 : (⟨S2996001x2, .i32⟩ : BufTy).Contents (Elt Ideal)) (v : Fin 1000000) :
    val_main_v13 (F := Ideal) x2 (ix1 v)
      = ∑ r : Fin 5992002, if (val_main_v12 (F := Ideal) x2 (ix2 r (0 : Fin 1))).toInt = (v.val : Int)
          then Ideal.ofBits .f32 0x3F800000#32 else 0 := by
  unfold val_main_v13
  rw [Host.scatterAdd, Ideal.hostScatterAdd_def, scatter_deg_eq, vecScatterAdd_apply, val_main_v11_apply,
    val_main_cst_0_apply, Ideal.ofBits_def, Ideal.ofBits_zero_f32, zero_add]
  refine Finset.sum_congr rfl fun r _ => ?_
  rw [val_main_v10_apply, val_main_cst_apply, Ideal.ofBits_def]

/-- The neighbour scatter's dimension numbers are the general slab scatter's. -/
theorem scatter_nbr_eq :
    scatter_S1000000x4x3_S5992002x1_S5992002x4x3_12_0_0_1
      = slabScatterDims 1000000 5992002 4 3
          Cert.ReferenceIdeal.Gen.scatter_S1000000x4x3_S5992002x1_S5992002x4x3_12_0_0_1_wf := rfl

/-- The position gather's dimension numbers are the general middle-axis slab gather's. -/
theorem gather_pos_eq :
    gather_S4x1000000x3_S5992002x1_S4x5992002x3_02_1_n_n_1_1_413
      = midGatherDims 4 1000000 5992002 3
          Cert.ReferenceIdeal.Gen.gather_S4x1000000x3_S5992002x1_S4x5992002x3_02_1_n_n_1_1_413_wf := rfl

/-- The transpose `[1, 0, 2]` reads element `(r, n, k)` of its result at `(n, r, k)` of its operand. -/
theorem idx21_ix3 (r : Fin 5992002) (n : Fin 4) (k : Fin 3) : idx_main_v21 (ix3 r n k) = ix3 n r k :=
  funext fun a => Fin.ext (by match a with | ⟨0, _⟩ => rfl | ⟨1, _⟩ => rfl | ⟨2, _⟩ => rfl)

/-- The neighbour sum of vertex `v` in mesh `n`, coordinate `k`: over the directed edges `r` whose start vertex,
    read signed, is `v`, the position of the edge's end vertex (the end-vertex column read signed, wrapped when
    negative, then clamped into the vertex range by the gather). -/
theorem ref_nbr (x0 : (⟨S4x1000000x3, .f32⟩ : BufTy).Contents (Elt Ideal))
    (x2 : (⟨S2996001x2, .i32⟩ : BufTy).Contents (Elt Ideal)) (v : Fin 1000000) (n : Fin 4) (k : Fin 3) :
    val_main_v24 (F := Ideal) x0 x2 (ix3 v n k)
      = ∑ r : Fin 5992002, if (val_main_v23 (F := Ideal) x2 (ix2 r (0 : Fin 1))).toInt = (v.val : Int)
          then x0 (ix3 n (slabRow (by decide : 0 < 1000000) (val_main_v19 (F := Ideal) x2) r) k) else 0 := by
  unfold val_main_v24
  rw [Host.scatterAdd, Ideal.hostScatterAdd_def, scatter_nbr_eq, slabScatterAdd_apply, val_main_v22_apply,
    val_main_cst_2_apply, Ideal.ofBits_def, Ideal.ofBits_zero_f32, zero_add]
  refine Finset.sum_congr rfl fun r _ => ?_
  rw [val_main_v21_apply, idx21_ix3]
  unfold val_main_v20
  rw [gather_pos_eq, midGather_apply (by decide : 0 < 1000000)]

end Cert.ReferenceIdeal.RefLoss

end
-- ==== Proof.SameEdges.lean ====
/-
  The two programs read the edge list the same way.

  Both programs form the directed edges' start vertices (column 0 of the edge list followed by column 1) and end
  vertices (column 1 followed by column 0, a negative one moved up by the vertex count) with the same operations in the
  same order, and hand them on as columns of indices. The kernel program's columns are therefore the reference's: the
  two terms are the same operations applied to the same edge list, over shapes that are the same literals.
-/
import proofs.«428575_j80934363726600_2_alg».proof.Proof.KernelStages
import proofs.«428575_j80934363726600_2_alg».proof.Proof.ReferenceIdealRead

set_option maxRecDepth 16384

noncomputable section

namespace Cert.SameEdges

open Idealize.ShloMosaic

variable {F : FTy → Type} [FloatOps F]

/-- The start vertices' column is the one the reference scatters the ones by. -/
theorem rowIx_eq_deg (e : (⟨Cert.KernelIdeal.S2996001x2, .i32⟩ : BufTy).Contents (Elt F)) :
    Cert.KernelIdeal.Stages.rowIx (F := F) e = Cert.ReferenceIdeal.ReadP.val_main_v12 (F := F) e := rfl

/-- The start vertices' column is the one the reference scatters the gathered positions by. -/
theorem rowIx_eq_nbr (e : (⟨Cert.KernelIdeal.S2996001x2, .i32⟩ : BufTy).Contents (Elt F)) :
    Cert.KernelIdeal.Stages.rowIx (F := F) e = Cert.ReferenceIdeal.ReadP.val_main_v23 (F := F) e := rfl

/-- The end vertices' column is the one the reference gathers the positions at. -/
theorem colIx_eq (e : (⟨Cert.KernelIdeal.S2996001x2, .i32⟩ : BufTy).Contents (Elt F)) :
    Cert.KernelIdeal.Stages.colIx (F := F) e = Cert.ReferenceIdeal.ReadP.val_main_v19 (F := F) e := rfl

end Cert.SameEdges

end
-- ==== Proof.SameLoss.lean ====
/-
  The two programs compute the same loss.

  Vertex by vertex. A vertex v < 1,000,000 is slot v of the kernel program's 1,048,576 slots. Its degree is, in both
  programs, the number of directed edges whose start vertex (read as a signed number, never clamped) is v: the kernel
  program scatters into more slots than the reference has vertices, which changes nothing at a slot that is a vertex,
  since an edge lands on slot v in the one exactly when it lands on vertex v in the other. Its neighbour sum is, in both,
  the sum over those edges of the position of the edge's end vertex (clamped into the vertex range): the kernel program
  gathers from the vertex-major positions and the reference gathers along the vertex axis and transposes afterwards,
  which read the same entry. Its weight is the same guarded reciprocal of the same degree, and the padded positions at a
  vertex are the positions. So the loss of slot v is the reference's sum over the meshes of the norm at (n, v).

  In total. The kernel's output array adds up to the sum of the slots' losses over the vertices (the padding slots count
  zero), the reference adds the norms over meshes and vertices in the other order, and a finite sum on the extended
  reals may be reordered; both totals are then divided by the same word.
-/
import proofs.«428575_j80934363726600_2_alg».proof.Proof.KernelEntry
import proofs.«428575_j80934363726600_2_alg».proof.Proof.KernelStagesAt
import proofs.«428575_j80934363726600_2_alg».proof.Proof.OutArray
import proofs.«428575_j80934363726600_2_alg».proof.Proof.OutTotal
import proofs.«428575_j80934363726600_2_alg».proof.Proof.KernelTotal
import proofs.«428575_j80934363726600_2_alg».proof.Proof.RefLoss
import proofs.«428575_j80934363726600_2_alg».proof.Proof.SameEdges

set_option maxRecDepth 16384

noncomputable section

open scoped BigOperators

namespace Cert.SameLoss

open Cert.KernelIdeal Cert.KernelIdeal.Gen Cert.KernelIdeal.GenP Cert.KernelIdeal.Stages Cert.KernelIdeal.StagesAt
  Cert.KernelIdeal.OutArray Cert.KernelIdeal.Result Idealize.ShloMosaic Idealize.ShloMosaic.TcCoe Idealize.ShloMosaic.ValueIdx
  Idealize.SL.Sem

/-- A vertex as a slot. -/
def slotOf (v : Fin 1000000) : Fin 1048576 := ⟨v.val, by have := v.isLt; omega⟩

/-- The degree of a vertex's slot is the reference's degree of the vertex. -/
theorem deg_eq (e : (⟨S2996001x2, .i32⟩ : BufTy).Contents (Elt Ideal)) (v : Fin 1000000) :
    deg (F := Ideal) e (ix1 (slotOf v)) = Cert.ReferenceIdeal.ReadP.val_main_v13 (F := Ideal) e (ix1 v) := by
  rw [deg_apply, Cert.ReferenceIdeal.RefLoss.ref_deg, Cert.SameEdges.rowIx_eq_deg]
  rfl

/-- The neighbour sum at a vertex's slot is the reference's at the vertex. -/
theorem nbr_eq (x : (⟨S4x1000000x3, .f32⟩ : BufTy).Contents (Elt Ideal)) (e : (⟨S2996001x2, .i32⟩ : BufTy).Contents (Elt Ideal))
    (v : Fin 1000000) (n : Fin 4) (k : Fin 3) :
    nbrT (F := Ideal) x e (ix3 n k (slotOf v)) = Cert.ReferenceIdeal.ReadP.val_main_v24 (F := Ideal) x e (ix3 v n k) := by
  rw [nbrT_apply, Cert.ReferenceIdeal.RefLoss.ref_nbr, Cert.SameEdges.rowIx_eq_nbr, Cert.SameEdges.colIx_eq]
  rfl

/-- The weight at a vertex's slot is the reference's weight of the vertex. -/
theorem weight_eq (e : (⟨S2996001x2, .i32⟩ : BufTy).Contents (Elt Ideal)) (v : Fin 1000000) :
    wrow (F := Ideal) e (ix3 (0 : Fin 1) (0 : Fin 1) (slotOf v)) = Cert.ReferenceIdeal.ReadP.val_main_v33 (F := Ideal) e (ix1 v) := by
  rw [wrow_apply, Cert.ReferenceIdeal.RefLoss.ref_weight, deg_eq]

/-- The loss of a vertex's slot is the reference's sum over the meshes of the norm at the vertex. -/
theorem slot_eq (x : (⟨S4x1000000x3, .f32⟩ : BufTy).Contents (Elt Ideal)) (e : (⟨S2996001x2, .i32⟩ : BufTy).Contents (Elt Ideal))
    (v : Fin 1000000) :
    slotLoss (nbrT (F := Ideal) x e) (vpad (F := Ideal) x) (wrow (F := Ideal) e) (slotOf v)
      = ∑ n : Fin 4, Ideal.sqrt (∑ k : Fin 3,
          (Cert.ReferenceIdeal.ReadP.val_main_v24 (F := Ideal) x e (ix3 v n k) * Cert.ReferenceIdeal.ReadP.val_main_v33 (F := Ideal) e (ix1 v) - x (ix3 n v k))
          * (Cert.ReferenceIdeal.ReadP.val_main_v24 (F := Ideal) x e (ix3 v n k) * Cert.ReferenceIdeal.ReadP.val_main_v33 (F := Ideal) e (ix1 v) - x (ix3 n v k))) := by
  unfold slotLoss
  refine Finset.sum_congr rfl fun n _ => congrArg Ideal.sqrt (Finset.sum_congr rfl fun k _ => ?_)
  rw [nbr_eq, weight_eq, vpad_apply x n k (slotOf v) v.isLt]
  rfl

variable (m : (ℓ : Loc nD τ sig) → Buf (Elt Ideal) ℓ)

/-- The kernel program's result, the scaled total of the output array the region leaves, is the reference's result at
    the same arguments. -/
theorem result_eq (c : Dev nD) :
    scaledTotal (F := Ideal) ((dats m 0 c).arrAt 3 cfg0.N)
      = Cert.ReferenceIdeal.ReadP.val_main_v42 (F := Ideal) (m ((c.tc : Thread nD τ).loc main_arg0)) (m ((c.tc : Thread nD τ).loc main_arg2)) := by
  funext i
  rw [scaledTotal_apply, final3 m c, V_nbrT m c, V_vpad m c, V_wrow m c, total_Gout, eq_ix0 i,
    Cert.ReferenceIdeal.RefLoss.ref_value, Finset.sum_comm]
  exact congrArg (fun s => Ideal.div s (Ideal.ofBits .f32 0x4A742400#32)) (Finset.sum_congr rfl fun v _ => slot_eq _ _ v)

end Cert.SameLoss

end
-- ==== Proof.lean ====
/-
  The certificate of the mesh Laplacian-smoothing loss: a kernel program that computes neighbour sums and degrees by
  scatter-adds into 1,048,576 slots, then reduces (neighbour sum · weight − position) to per-vertex norms tile by tile
  inside one pipelined region with the padding slots masked, against a reference that does the same over exactly the
  1,000,000 vertices with whole-array operations.

  The three frames. Each kernel program's frame is its region's frame run around the host operations (the stored value
  reads the grid position, which the frame's proof data carries as the point's coordinates); the reference has no
  region, and its frame is its run with the result dropped.

  The idealization rewrote nothing, so there is nothing to preserve.

  The value. On the extended reals the kernel program ends with the total of its 64 × 128 output array divided by
  4,000,000, and the reference with its total over meshes and vertices divided by the same word. The output array's
  total is the sum over the vertices of the per-vertex loss of the region's three input arrays; those arrays are, at a
  vertex, the reference's neighbour sums, weights and positions (the scatter-adds agree below the vertex count, the
  gathers read the same entries); and the reference's total is that sum in the other order. Only commutativity and
  associativity of addition are used, so the precondition that the positions are finite is never opened.
-/
import proofs.«428575_j80934363726600_2_alg».proof.Defs
import proofs.«428575_j80934363726600_2_alg».proof.Proof.Gen.Kernel
import proofs.«428575_j80934363726600_2_alg».proof.Proof.Gen.Kernel.Skeleton
import proofs.«428575_j80934363726600_2_alg».proof.Proof.Gen.Kernel.Launch
import proofs.«428575_j80934363726600_2_alg».proof.Proof.Gen.Kernel.Points
import proofs.«428575_j80934363726600_2_alg».proof.Proof.KernelFrame
import proofs.«428575_j80934363726600_2_alg».proof.Proof.Gen.KernelIdeal
import proofs.«428575_j80934363726600_2_alg».proof.Proof.Gen.KernelIdeal.Skeleton
import proofs.«428575_j80934363726600_2_alg».proof.Proof.Gen.KernelIdeal.Launch
import proofs.«428575_j80934363726600_2_alg».proof.Proof.Gen.KernelIdeal.Points
import proofs.«428575_j80934363726600_2_alg».proof.Proof.KernelIdealFrame
import proofs.«428575_j80934363726600_2_alg».proof.Proof.Gen.ReferenceIdeal
import proofs.«428575_j80934363726600_2_alg».proof.Proof.ReferenceIdealRun
import proofs.«428575_j80934363726600_2_alg».proof.Proof.ReferenceIdealRead
import proofs.«428575_j80934363726600_2_alg».proof.Proof.Gen.Pre_finite_inputs
import proofs.«428575_j80934363726600_2_alg».proof.Proof.KernelResult
import proofs.«428575_j80934363726600_2_alg».proof.Proof.SameLoss
import Idealize.ShloMosaic.Adequacy
import Idealize.ShloMosaic.Init

noncomputable section

namespace Cert.Proof

open Idealize.ShloMosaic Idealize.SL.Sem

/-- The word-level kernel program runs and keeps its arguments: its region's frame. -/
theorem frame_kernel : Cert.frame_Kernel := fun m ρ _ => Cert.Kernel.GenP.frame m ρ

/-- The idealized kernel program runs and keeps its arguments: its region's frame. -/
theorem frame_kernelIdeal : Cert.frame_KernelIdeal := fun m ρ _ => Cert.KernelIdeal.GenP.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both idealized programs run, keep the arguments, and end with the same
    result: the scaled total of the kernel's output array, which is the reference's result at the same arguments. -/
theorem algebraic : Cert.algebraic_KernelIdeal_ReferenceIdeal := by
  intro m ρ m' ρ' _ hagree
  refine ⟨fun c => Cert.KernelIdeal.Result.scaledTotal (F := Ideal)
      ((Cert.KernelIdeal.GenP.dats m 0 c).arrAt 3 Cert.KernelIdeal.cfg0.N),
    Cert.KernelIdeal.Result.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, (hagree c).1, (hagree c).2.2]
  exact (Cert.SameLoss.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
